-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 256, 512]⟩ ⟨3, ![2, 256, 512]⟩ (Layout.meshBlock [2, 2, 2] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 256]⟩ ⟨2, ![256, 512]⟩ (Layout.meshBlock [2, 2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x256x512 : Shape := ⟨3, ![1, 256, 512]⟩
abbrev S_ : Shape := ⟨0, ![]⟩

class Facts : Prop where
  bcast_S_S1x256x512 : S_.BroadcastsInDim S1x256x512 (![] : Fin 0 → Fin S1x256x512.rank)
  reducesTo_S1x256x512_S_d0_1_2 : S1x256x512.ReducesTo [0, 1, 2] S_
  h_S_ : 0 < S_.numel

variable [Facts]

def fn {F : FTy → Type} [FloatOps F] (main_arg0 : FVec F S1x256x512 .f32) : IVec S_ 1 :=
  let main_v0 : FVec F S1x256x512 .f32 := Host.absf main_arg0
  let main_cst : FVec F S_ .f32 := constant S_ .f32 0x7F800000#32
  let main_v1 : FVec F S1x256x512 .f32 := broadcastInDim S1x256x512 ![] bcast_S_S1x256x512 main_cst
  let main_v2 : IVec S1x256x512 1 := cmpf .olt main_v0 main_v1
  let main_c : IVec S_ 1 := constantI S_ 1 1#1
  let main_v3 : IVec S_ 1 := (fun x v => Host.reduce IntOp.andi x v reducesTo_S1x256x512_S_d0_1_2 h_S_) main_v2 main_c
  main_v3
-- ==== Pre_finite_inputs_ReferenceIdeal.lean ====
abbrev S2x256x512 : Shape := ⟨3, ![2, 256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel

variable [Facts]

def fn {F : FTy → Type} [FloatOps F] (main_arg0 : FVec F S2x256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  main_v3
-- ==== Kernel.lean ====
abbrev S1x256x512 : Shape := ⟨3, ![1, 256, 512]⟩
abbrev S256x256 : Shape := ⟨2, ![256, 256]⟩
abbrev S_ : Shape := ⟨0, ![]⟩
abbrev S1x256x256 : Shape := ⟨3, ![1, 256, 256]⟩

abbrev nBuf : Space → Nat
  | .hbm => 2
  | .vmem => 5
  | .smem => 0
  | _ => 0

abbrev bufTy : (tb : Table) → Fin (tcTables nBuf tb) → BufTy
  | .hbm, ⟨0, _⟩ => ⟨S1x256x512, .f32⟩
  | .hbm, ⟨1, _⟩ => ⟨S256x256, .bf16⟩
  | .local _ .vmem, ⟨0, _⟩ => ⟨S1x256x512, .f32⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x256, .f32⟩
  | _, _ => ⟨S1x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_6 : BitVec 32 := 2#32
  let v13 : BitVec 32 := Scalar.muli v9 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_dev2 (d0 : Dev nD) : Nat :=
  let c0_i32_14 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_13 : BitVec 32 := 4#32
  let v23 : BitVec 32 := Scalar.muli v2 c4_i32_13
  let v24 : BitVec 32 := Scalar.addi c0_i32_14 v23
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_15 : BitVec 32 := 2#32
  let v25 : BitVec 32 := Scalar.muli v9 c2_i32_15
  let v26 : BitVec 32 := Scalar.addi v24 v25
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v27 : BitVec 32 := Scalar.muli v8 c1_i32_16
  let v28 : BitVec 32 := Scalar.addi v26 v27
  v28.toNat
def k0_dev3 (d0 : Dev nD) : Nat :=
  let c0_i32_33 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_32 : BitVec 32 := 4#32
  let v47 : BitVec 32 := Scalar.muli v2 c4_i32_32
  let v48 : BitVec 32 := Scalar.addi c0_i32_33 v47
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_34 : BitVec 32 := 2#32
  let v49 : BitVec 32 := Scalar.muli v9 c2_i32_34
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v51 : BitVec 32 := Scalar.muli v8 c1_i32_35
  let v52 : BitVec 32 := Scalar.addi v50 v51
  v52.toNat
abbrev stage0_0 : Fin 1 → Memref sig .tc .vmem S1x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1x256x512_S1x256x256_0_0_256 : ∀ a, (![0, 0, 256] : Fin 3 → Nat) a + S1x256x256.size a ≤ S1x256x512.size a
  h_S1x256x256 : 0 < S1x256x256.numel
  shapeCasts_S1x256x256_S256x256 : S1x256x256.ShapeCasts S256x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S256x256_S256x256_0_0 : (Rect.unit (s := S256x256) ![0, 0] S256x256.size inb_S256x256_S256x256_0_0).PackedRows (EltTy.packing .bf16)
  inb_S1x256x512_S1x256x256_0_0_0 : ∀ a, (![0, 0, 0] : Fin 3 → Nat) a + S1x256x256.size a ≤ S1x256x512.size a
  hcc0_scratch3 : 2 + S_.numel ≤ 4
  hcc0_scratch4 : 3 + S_.numel ≤ 4
  k0_dev1_lt : ∀ d0 : Dev nD, (k0_dev1 d0) < nD
  k0_dev2_lt : ∀ d0 : Dev nD, (k0_dev2 d0) < nD
  k0_dev3_lt : ∀ d0 : Dev nD, (k0_dev3 d0) < nD
  hstage0_0 : ∀ j, (stage0_0 j).IsWhole
  hstage0_1 : ∀ j, (stage0_1 j).IsWhole

variable [Facts₀]

abbrev cc0_scratch3 : DmaSems sig S_ := SemArray.consecutive 2 S_ hcc0_scratch3
abbrev cc0_scratch4 : DmaSems sig S_ := SemArray.consecutive 3 S_ hcc0_scratch4

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x256x512 : Shape := ⟨3, ![2, 256, 512]⟩
abbrev S_ : Shape := ⟨0, ![]⟩
abbrev S256x512 : Shape := ⟨2, ![256, 512]⟩

abbrev nBuf : Space → Nat
  | .hbm => 4
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S_, .f32⟩
  | .hbm, ⟨2, _⟩ => ⟨S256x512, .f32⟩
  | .hbm, ⟨3, _⟩ => ⟨S256x512, .bf16⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S2x256x512_S256x512_d0 : S2x256x512.ReducesTo [0] S256x512
  h_S_ : 0 < S_.numel
  bitsLt_bf16_f32 : FTy.bits .bf16 < FTy.bits .f32

variable [Facts₀]

class Facts : Prop extends Facts₀ where

variable [Facts]
-- ==== Proof.KernelProto.lean ====
/-
  The exchange protocol of a two-way reduce-scatter over the mesh axis y.

  Eight devices sit on a 2 x 2 x 2 mesh; device `c` and its partner `peer c` (the device with the
  other y coordinate and the same x and z) each hold one [1, 256, 512] block of the input. A device
  keeps one column half of its block, sends the other half (narrowed to bf16) to its partner, and adds
  what the partner sent to the half it kept: the device with y = 0 ends with the left half of the sum
  of the two blocks, the device with y = 1 with the right half.

  Three semaphore cells per device carry the exchange. The barrier cell: the partner pays one unit on
  entering the kernel (round 0; with it the partner hands over its landing buffer and the fact that its
  receive cell is at round 0: what a transfer into that buffer needs) and one unit on leaving (round 1;
  it hands over nothing and is never waited for). The send cell: one duty, the sent half read in full,
  giving the sending buffer back. The receive cell: one duty, the partner's half landed in the landing
  buffer, together with the fact that the partner has passed its own barrier wait (what this device's
  parting signal to the partner's barrier cell needs).
-/
import proofs.«900589_g7700000000000590_dist_rs_v7x_xyz2x2x2_y_m256_n256_bf16_1_alg».proof.Proof.Gen.Kernel
import proofs.«900589_g7700000000000590_dist_rs_v7x_xyz2x2x2_y_m256_n256_bf16_1_alg».proof.Proof.Gen.Kernel.Skeleton
import proofs.«900589_g7700000000000590_dist_rs_v7x_xyz2x2x2_y_m256_n256_bf16_1_alg».proof.Proof.Gen.Kernel.Launch
import proofs.«900589_g7700000000000590_dist_rs_v7x_xyz2x2x2_y_m256_n256_bf16_1_alg».proof.Proof.Gen.Kernel.Points
import Idealize.ShloMosaic.Lib.Pipeline.Launch
import Idealize.ShloMosaic.Lib.Pipeline.Kit
import Idealize.ShloMosaic.Lib.Tactic

noncomputable section

namespace Cert.Kernel.Exch

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds algebra and the exchange's own, side by side.
    Tallies are indexed by (round, duty): `i0` for the units of a round 0, `i1` for the parting barrier unit. -/

abbrev Ix : Type := ℕ × Unit
abbrev i0 : Ix := (0, ())
abbrev i1 : Ix := (1, ())

abbrev UB : Type := URounds (GSem nD τ sig) Unit
abbrev UU : Type := UR sig nD τ × UB

local notation "𝕄" => MT nD τ sig Ix (Elt F) ℕ UU ℕ

abbrev EP : Emb (UR sig nD τ) (MT nD τ sig Ix (Elt F) ℕ UU ℕ) := embL
abbrev ER : Emb UB (MT nD τ sig Ix (Elt F) ℕ UU ℕ) := embR

variable (m : (ℓ : Loc nD τ sig) → Buf (Elt F) ℓ) (ρ : Dev nD → PrngReg)

/-! ## The partner: the device across the y axis -/

/-- Device `c` is at (c / 4, c / 2 % 2, c % 2); its partner has the other y coordinate. -/
def peer (c : Dev nD) : Dev nD :=
  ⟨(4 * (c.val / 4) + (c.val % 2) + 2) - 2 * ((c.val / 2) % 2), by
    have h : c.val < 8 := c.isLt
    show _ < 8
    omega⟩

theorem peer_peer (c : Dev nD) : peer (peer c) = c := by revert c; decide
theorem peer_ne (c : Dev nD) : peer c ≠ c := by revert c; decide

/-- The three device chains of the kernel all name the partner. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)

def pairing : Dev nD ≃ Dev nD := ⟨peer, peer, peer_peer, peer_peer⟩

/-! ## The memrefs and the cells -/

abbrev xM : Memref sig .tc .vmem S1x256x512 .f32 := Memref.whole cc0_stg0_0
abbrev oM : Memref sig .tc .vmem S256x256 .bf16 := Memref.whole cc0_stg1_0
/-- the half to send, -/
abbrev sM : Memref sig .tc .vmem S256x256 .bf16 := Memref.whole cc0_scratch0
/-- the landing buffer for the partner's half, -/
abbrev rM : Memref sig .tc .vmem S256x256 .bf16 := Memref.whole cc0_scratch1
/-- the half kept. -/
abbrev lM : Memref sig .tc .vmem S256x256 .f32 := Memref.whole cc0_scratch2

abbrev barS : Sem sig := (SemArray.scalar (sig.barrier 0 rfl) : Sems sig S_).sem
abbrev sendS : DmaSems sig S_ := cc0_scratch3
abbrev recvS : DmaSems sig S_ := cc0_scratch4

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores: send, receive; -/
abbrev osem : Fin 2 → SemLoc sig := fun | 0 => .dma sendS.sem | 1 => .dma recvS.sem
/-- the three cells of the exchange: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (rM : Memref sig .tc .vmem S256x256 .bf16).view.dmaCredit
theorem N_pos : 0 < N := View.dmaCredit_pos _ (by decide)

/-! ## Contents -/

/-- The right column half of the staged block, and the left. -/
abbrev rHi : Rect S1x256x512 := Rect.unit (s := S1x256x512) ![0, 0, 256] S1x256x256.size inb_S1x256x512_S1x256x256_0_0_256
abbrev rLo : Rect S1x256x512 := Rect.unit (s := S1x256x512) ![0, 0, 0] S1x256x256.size inb_S1x256x512_S1x256x256_0_0_0
abbrev r0 : Rect S256x256 := Rect.unit (s := S256x256) ![0, 0] S256x256.size inb_S256x256_S256x256_0_0

/-- Device `c`'s staged block of `x`. -/
def xstg (c : Dev nD) : (cc0_stg0_0 : Ref sig .tc).ty.Contents (Elt F) :=
  (win0_0.blk (0 : Fin 1)).view.read (Elt F) (m ((c : Thread nD τ).loc main_arg0))

def hiOf (x : (cc0_stg0_0 : Ref sig .tc).ty.Contents (Elt F)) : Vec F S1x256x256 .f32 :=
  (xM : Memref sig .tc .vmem S1x256x512 .f32).view.readAt (Elt F) rHi.toLoadRect x
def loOf (x : (cc0_stg0_0 : Ref sig .tc).ty.Contents (Elt F)) : Vec F S1x256x256 .f32 :=
  (xM : Memref sig .tc .vmem S1x256x512 .f32).view.readAt (Elt F) rLo.toLoadRect x

/-- Whether the device has y coordinate 0. -/
abbrev y0 (c : Dev nD) : Prop := c.val / 2 % 2 = 0

/-- The half device `c` sends: the right half at y = 0, the left half at y = 1, narrowed. -/
def sendVal (c : Dev nD) : (cc0_scratch0 : Ref sig .tc).ty.Contents (Elt F) :=
  if y0 c then k0_pay4 (hiOf (xstg m c)) else k0_pay5 (loOf (xstg m c))
/-- The half it keeps: the left half at y = 0, the right half at y = 1. -/
def keptVal (c : Dev nD) : (cc0_scratch2 : Ref sig .tc).ty.Contents (Elt F) :=
  if y0 c then k0_pay1 (loOf (xstg m c)) else k0_pay2 (hiOf (xstg m c))
/-- What lands in its landing buffer: the partner's sent half. -/
def landed (c : Dev nD) : (cc0_scratch1 : Ref sig .tc).ty.Contents (Elt F) := sendVal m (peer c)
/-- Its result: the kept half plus the landed half. -/
def outAt (c : Dev nD) : (cc0_stg1_0 : Ref sig .tc).ty.Contents (Elt F) := k0_pay3 (keptVal m c) (landed m c)

/-! ## The schedule -/

/-- What the partner's entry signal hands device `d`: the partner's landing buffer, at whatever it holds, and that the
    partner's receive cell is at round 0. -/
def barPay (d : Dev nD) : sProp 𝕄 :=
  iprop((∃ f, ((rM : Memref sig .tc .vmem S256x256 .bf16).view.loc ((peer d : Dev nD) : Thread nD τ)) ↦{fullShare} f) ∗ reached ER (recvCell (peer d)) 0)
/-- What the landing hands device `d`: its landing buffer holding the partner's sent half, and that the partner has
    consumed round 0 of its barrier cell. -/
def recvPay (d : Dev nD) : sProp 𝕄 :=
  iprop((((rM : Memref sig .tc .vmem S256x256 .bf16).view.loc ((d : Dev nD) : Thread nD τ)) ↦{fullShare} landed m d) ∗ reached ER (barCell (peer d)) 1)
/-- What the departure hands device `d`: its sending buffer back. -/
def sendPay (d : Dev nD) : sProp 𝕄 := ((sM : Memref sig .tc .vmem S256x256 .bf16).view.loc ((d : Dev nD) : Thread nD τ)) ↦{fullShare} sendVal m d

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- A barrier cell has one duty of one unit in round 0 (the partner's entry) and one in round 1 (its parting signal);
    a send or a receive cell one duty of the block's credit in round 0. -/
def exRd : Rounds.Schedule (GSem nD τ sig) Unit 𝕄 where
  duties g r := if (r ≤ 1 ∧ IsBar g) ∨ (r = 0 ∧ IsXfer g) then {()} else ∅
  unitless _ := False
  amount g _ _ := if g.2 = .reg barS then 1 else N
  payload g r _ :=
    if g.2 = .reg barS then (if r = 0 then barPay g.1.1 else iprop(emp))
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance exRd_payload_storable (g : GSem nD τ sig) (r : ℕ) (d : Unit) :
    BI.Storable (upEmb : UEmb _ 𝕄) ((exRd (F := F) m).payload g r d) := by
  show BI.Storable upEmb (if g.2 = .reg barS then (if r = 0 then barPay g.1.1 else iprop(emp)) else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide
theorem not_bar_send : ¬ IsBar (sendCell c) := fun h => send_ne_bar h.2
theorem not_bar_recv : ¬ IsBar (recvCell c) := fun h => recv_ne_bar h.2
theorem not_xfer_bar : ¬ IsXfer (barCell c) := fun h => h.2.elim (fun h' => send_ne_bar h'.symm) (fun h' => recv_ne_bar h'.symm)

theorem duties_bar0 : (exRd (F := F) m).duties (barCell c) 0 = {()} := by dsimp only [exRd]; exact if_pos (.inl ⟨Nat.zero_le _, rfl, rfl⟩)
theorem duties_bar1 : (exRd (F := F) m).duties (barCell c) 1 = {()} := by dsimp only [exRd]; exact if_pos (.inl ⟨Nat.le_refl _, rfl, rfl⟩)
theorem duties_send : (exRd (F := F) m).duties (sendCell c) 0 = {()} := by dsimp only [exRd]; exact if_pos (.inr ⟨rfl, rfl, .inl rfl⟩)
theorem duties_recv : (exRd (F := F) m).duties (recvCell c) 0 = {()} := by dsimp only [exRd]; exact if_pos (.inr ⟨rfl, rfl, .inr rfl⟩)
theorem duties_later_send : ∀ r, 1 ≤ r → (exRd (F := F) m).duties (sendCell c) r = ∅ :=
  fun r hr => by dsimp only [exRd]; exact if_neg fun h => h.elim (fun h' => not_bar_send c h'.2) (fun h' => by omega)
theorem duties_later_recv : ∀ r, 1 ≤ r → (exRd (F := F) m).duties (recvCell c) r = ∅ :=
  fun r hr => by dsimp only [exRd]; exact if_neg fun h => h.elim (fun h' => not_bar_recv c h'.2) (fun h' => by omega)

theorem amount_bar (r : ℕ) (d : Unit) : (exRd (F := F) m).amount (barCell c) r d = 1 := by dsimp only [exRd]; exact if_pos rfl
theorem amount_send (d : Unit) : (exRd (F := F) m).amount (sendCell c) 0 d = N := by dsimp only [exRd]; exact if_neg send_ne_bar
theorem amount_recv (d : Unit) : (exRd (F := F) m).amount (recvCell c) 0 d = N := by dsimp only [exRd]; exact if_neg recv_ne_bar

theorem expect_bar0 : (exRd (F := F) m).expect (barCell c) 0 = 1 := by
  unfold Schedule.expect Schedule.amountOf; rw [duties_bar0, Finset.sum_singleton, amount_bar]
theorem expect_send : (exRd (F := F) m).expect (sendCell c) 0 = N := by
  unfold Schedule.expect Schedule.amountOf; rw [duties_send, Finset.sum_singleton, amount_send]
theorem expect_recv : (exRd (F := F) m).expect (recvCell c) 0 = N := by
  unfold Schedule.expect Schedule.amountOf; rw [duties_recv, Finset.sum_singleton, amount_recv]

/-- The entry payload on the device's own barrier cell: the partner's landing buffer. -/
theorem payload_bar0 (d : Unit) : (exRd (F := F) m).payload (barCell c) 0 d
    = iprop((∃ f, ((rM : Memref sig .tc .vmem S256x256 .bf16).view.loc ((peer c : Dev nD) : Thread nD τ)) ↦{fullShare} f) ∗ reached ER (recvCell (peer c)) 0) := by
  dsimp only [exRd]; rw [if_pos rfl, if_pos rfl]; rfl
/-- The entry payload on the partner's barrier cell: this device's own landing buffer. -/
theorem payload_bar0_peer (d : Unit) : (exRd (F := F) m).payload (barCell (peer c)) 0 d
    = iprop((∃ f, ((rM : Memref sig .tc .vmem S256x256 .bf16).view.loc ((c : Dev nD) : Thread nD τ)) ↦{fullShare} f) ∗ reached ER (recvCell c) 0) := by
  rw [payload_bar0, peer_peer]
theorem payload_bar1 (d : Unit) : (exRd (F := F) m).payload (barCell c) 1 d = iprop(emp) := by
  dsimp only [exRd]; rw [if_pos rfl]; exact if_neg (by decide)
theorem payload_send (d : Unit) : (exRd (F := F) m).payload (sendCell c) 0 d
    = (((sM : Memref sig .tc .vmem S256x256 .bf16).view.loc ((c : Dev nD) : Thread nD τ)) ↦{fullShare} sendVal m c) := by
  dsimp only [exRd]; rw [if_neg send_ne_bar, if_neg send_ne_recv, if_pos rfl]; rfl
theorem payload_recv (d : Unit) : (exRd (F := F) m).payload (recvCell c) 0 d
    = iprop((((rM : Memref sig .tc .vmem S256x256 .bf16).view.loc ((c : Dev nD) : Thread nD τ)) ↦{fullShare} landed m c) ∗ reached ER (barCell (peer c)) 1) := by
  dsimp only [exRd]; rw [if_neg recv_ne_bar, if_pos rfl]; rfl
/-- The landing payload on the partner's receive cell: what this device sends, and this device's own barrier round. -/
theorem payload_recv_peer (d : Unit) : (exRd (F := F) m).payload (recvCell (peer c)) 0 d
    = iprop((((rM : Memref sig .tc .vmem S256x256 .bf16).view.loc ((peer c : Dev nD) : Thread nD τ)) ↦{fullShare} sendVal m c) ∗ reached ER (barCell c) 1) := by
  rw [payload_recv, landed, peer_peer]

end Sched

/-! ## What each device owes at launch; the levels -/

/-- Device `c` owes its partner's barrier cell the entry unit and the parting unit, and its partner's receive cell the
    block's credit — summed so that each payment peels the last summand left. -/
def O₂ (c : Dev nD) : CellTallies nD τ sig Ix := tallyAt (barCell (peer c)) i1 1
def O₁ (c : Dev nD) : CellTallies nD τ sig Ix := O₂ c + tallyAt (recvCell (peer c)) i0 N
def O₀ (c : Dev nD) : CellTallies nD τ sig Ix := O₁ c + tallyAt (barCell (peer c)) i0 1

def L (g : GSem nD τ sig) : Finset Ix := if g.1.2 = .tc then {i0, i1} else ∅
/-- A barrier cell's entry unit at 1, a receive cell at 2, a barrier cell's parting unit at 3, everything else (staging,
    send) at 0: a device waits for the entry unit while it owes a landing and a parting unit, for its landing while it
    owes a parting unit. -/
def lv (g : GSem nD τ sig) (i : Ix) : ℕ :=
  if g.2 = .reg barS then (if i.1 = 0 then 1 else 3) else if g.2 = .dma recvS.sem then 2 else 0

theorem lv_bar0 (d : Dev nD) : lv (barCell d) i0 = 1 := by dsimp only [lv]; rw [if_pos rfl, if_pos rfl]
theorem lv_bar1 (d : Dev nD) : lv (barCell d) i1 = 3 := by dsimp only [lv]; rw [if_pos rfl, if_neg (by decide)]
theorem lv_recv (d : Dev nD) (i : Ix) : lv (recvCell d) i = 2 := by dsimp only [lv]; rw [if_neg recv_ne_bar, if_pos rfl]
theorem lv_send (d : Dev nD) (i : Ix) : lv (sendCell d) i = 0 := by dsimp only [lv]; rw [if_neg send_ne_bar, if_neg send_ne_recv]

theorem L_of_ne (g : GSem nD τ sig) (h : g.1.2 ≠ .tc) : L g = ∅ := if_neg h
theorem L_tc (c : Dev nD) (sm : SemLoc sig) : L ((c : Thread nD τ), sm) = {i0, i1} := if_pos rfl

end Cert.Kernel.Exch

end
-- ==== Proof.KernelData.lean ====
/-
  The pipeline's proof data for the exchange: what a device holds when its one grid point begins (its cells'
  invariants, its positions, the tokens of the duties it pays, its launch credit, its three scratch buffers) and
  what it hands back when the point ends; the two windows' contents after the point: the staged block of x, and
  the kept half plus the landed half.
-/
import proofs.«900589_g7700000000000590_dist_rs_v7x_xyz2x2x2_y_m256_n256_bf16_1_alg».proof.Proof.KernelProto

noncomputable section

namespace Cert.Kernel.Exch

open Cert.Kernel Cert.Kernel.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Ix (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s run opens, under the names `K` the launch allocated them at: its own three,
    its partner's barrier cell (its two signals) and its partner's receive cell (its transfer). -/
def invs (K : Dev nD × Fin 3 → ℕ) (c : Dev nD) : sProp 𝕄 :=
  iprop(cellInv ER (exRd m) (K (c, 0)) (barCell c) ∗ cellInv ER (exRd m) (K (c, 1)) (sendCell c) ∗ cellInv ER (exRd m) (K (c, 2)) (recvCell c)
    ∗ cellInv ER (exRd m) (K (peer c, 0)) (barCell (peer c)) ∗ cellInv ER (exRd m) (K (peer c, 2)) (recvCell (peer c)))

instance invs_persistent (K : Dev nD × Fin 3 → ℕ) (c : Dev nD) : BI.Persistent (invs m K c) := by unfold invs; infer_instance

/-- The ghost state device `c` starts from: the invariants; its positions at round 0 of its three cells; the reached
    rounds of the cells it pays at round 0 and of its own send and receive cells; the four duty tokens it pays with — its
    partner's barrier duties of rounds 0 and 1, its partner's receive duty, its own send duty. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (barCell (peer c)) 1 () ∗ dutyTok ER (recvCell (peer c)) 0 () ∗ dutyTok ER (sendCell c) 0 ())

/-- What device `c`'s point starts from: that at some names, the credit for its barrier's entry unit and for its
    landing, and the level facts. -/
def start (c : Dev nD) : sProp 𝕄 :=
  iprop((∃ K, ghost m K c) ∗ cred (tallyAt (barCell c) i0 1) ∗ cred (tallyAt (recvCell c) i0 N) ∗ levAts L lv)

/-- The three scratch buffers, each whole at some contents. -/
def scratch (c : Dev nD) : sProp 𝕄 :=
  iprop((∃ f : Buf (Elt F) (((c : Dev nD) : Thread nD τ).loc cc0_scratch0), (((c : Thread nD τ).loc cc0_scratch0) ↦{fullShare} f))
    ∗ (∃ f : Buf (Elt F) (((c : Dev nD) : Thread nD τ).loc cc0_scratch1), (((c : Thread nD τ).loc cc0_scratch1) ↦{fullShare} f))
    ∗ (∃ f : Buf (Elt F) (((c : Dev nD) : Thread nD τ).loc cc0_scratch2), (((c : Thread nD τ).loc cc0_scratch2) ↦{fullShare} f)))

def Φ₀ (c : Dev nD) : sProp 𝕄 := iprop(start m c ∗ scratch c)
/-- After the point: the scratch buffers, and the two own cells at zero, closed (the barrier cell is the runtime's:
    nothing to hand back). -/
def Φ₁ (c : Dev nD) : sProp 𝕄 := iprop(scratch c ∗ semVal (sendCell c) 0 ∗ semVal (recvCell c) 0)

def dats (_ : Fin 1) (c : Dev nD) : Dat τ (Elt F) Ix ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body's run starts from, at names `K`; -/
def bodyPre (K : Dev nD × Fin 3 → ℕ) (c : Dev nD) : sProp 𝕄 :=
  iprop((ghost m K c ∗ cred (tallyAt (barCell c) i0 1) ∗ cred (tallyAt (recvCell c) i0 N) ∗ levAts L lv ∗ scratch c)
    ∗ (dats m 0 c).owesAt i0 t₀.castSucc
    ∗ (∃ d, stg c cc0_stg0_0 ((dats m 0 c).before (0 : Fin 2) t₀ d))
    ∗ (∃ d, stg c cc0_stg1_0 ((dats m 0 c).before (1 : Fin 2) t₀ d)))

/-- and what it ends with. -/
def bodyPost (c : Dev nD) : sProp 𝕄 :=
  iprop(Φ₁ c ∗ (dats m 0 c).owesAt i0 t₀.succ ∗ stg c cc0_stg0_0 (xstg m c) ∗ stg c cc0_stg1_0 (outAt m c))

end Cert.Kernel.Exch

end
-- ==== Proof.KernelLaunch.lean ====
/-
  The launch of the exchange: the ghost state of the three cells per device funded and dealt out, the cells'
  invariants allocated for all devices at once (the barrier cell is shared between a device and its partner), the
  launch credit split per cell, and from one device's run of the body the run of the whole mesh, every device's
  arrays at their final contents.
-/
import proofs.«900589_g7700000000000590_dist_rs_v7x_xyz2x2x2_y_m256_n256_bf16_1_alg».proof.Proof.KernelData

noncomputable section

namespace Cert.Kernel.Exch

open Cert.Kernel Cert.Kernel.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Ix (Elt F) ℕ UU ℕ

variable (m : (ℓ : Loc nD τ sig) → Buf (Elt F) ℓ) (ρ : Dev nD → PrngReg)

/-! ## The cells and the tokens -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def exCells : Finset (GSem nD τ sig) := Finset.univ.map ⟨kcell, kcell_injective⟩

/-- A device's own cells' duty tokens as minted: its barrier cell's duty of round 0 and of round 1, its send cell's
    and its receive cell's duty of round 0. -/
abbrev tokOf (cj : Dev nD × Fin 4) : GSem nD τ sig × ℕ × Unit := match cj.2 with
  | 0 => (barCell cj.1, 0, ()) | 1 => (barCell cj.1, 1, ()) | 2 => (sendCell cj.1, 0, ()) | 3 => (recvCell cj.1, 0, ())
theorem tokOf_injective : Function.Injective (tokOf : Dev nD × Fin 4 → GSem nD τ sig × ℕ × Unit) := by
  rintro ⟨c, j⟩ ⟨c', j'⟩ h
  have h1 : c = c' := by
    have := congrArg (fun x : GSem nD τ sig × ℕ × Unit => x.1.1.1) h
    fin_cases j <;> fin_cases j' <;> exact this
  subst h1
  have : j = j' := by
    fin_cases j <;> fin_cases j' <;> first | rfl | exact absurd (congrArg (fun x : GSem nD τ sig × ℕ × Unit => (x.1.2, x.2.1)) h) (fun h' => by cases h')
  subst this; rfl
def exToks : Finset (GSem nD τ sig × ℕ × Unit) := Finset.univ.map ⟨tokOf, tokOf_injective⟩

def u₀ : UU :=
  (initOf (Pipeline.cells cfgs cellOf_inj) (Pipeline.launchToks cfgs cellOf_inj), initOf exCells exToks)

/-- The duty tokens of device c's own cells. -/
def toks (c : Dev nD) : sProp 𝕄 :=
  iprop(dutyTok ER (barCell c) 0 () ∗ dutyTok ER (barCell c) 1 () ∗ dutyTok ER (sendCell c) 0 () ∗ dutyTok ER (recvCell c) 0 ())

/-- What the launch element deals device c: -/
def G (c : Dev nD) : sProp 𝕄 :=
  iprop((bigSep Finset.univ fun k : Fin 3 => roundState ER (exRd m) (kcell (c, k)) 0)
    ∗ (bigSep Finset.univ fun k : Fin 3 => iprop(atPos ER (kcell (c, k)) 0 ∅ 0 ∗ reached ER (kcell (c, k)) 0)) ∗ toks c)

/-- what the step over all devices makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

theorem fund : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Fin 3 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_fin4]; rfl
  iintro HX
  imod (Rounds.fund ER (exRd m) exCells exToks) $$ HX with ⟨Hst, Hr, Hat, Htok⟩
  imodintro
  ihave Hst' := (Entails.of_eq (hX fun g => roundState ER (exRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The invariants allocated, for all devices at once -/

omit [FloatOps F] in
/-- The send and the receive semaphore are the kernel's own two; -/
theorem ownSems0_eq (c : Dev nD) : (Pipeline.ownSems0 (Ix := Ix) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Ix) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Ix) (Name := ℕ) (U := UU) (Lvl := ℕ) (Val := Elt F) (τ := τ) osem c ∗ unscopedSems0 c ∗ G m c)
      ⊢ |={Set.univ}=> iprop((bigSep Finset.univ fun k => iprop(∃ κ : ℕ, cellInv ER (exRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (exRd m) (kcell (c, k)) 0)
      ⊢ (|={Set.univ}=> bigSep Finset.univ fun k => iprop(∃ κ : ℕ, cellInv ER (exRd m) κ (kcell (c, k))) : sProp 𝕄) from by
        rw [← bigSep_sep']
        exact (bigSep_mono fun k _ => (Rounds.body_intro ER (exRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What every device may read: every cell's invariant at its name, and that every cell is at round 0. -/
def records (K : Dev nD × Fin 3 → ℕ) : sProp 𝕄 :=
  iprop((bigSep Finset.univ fun ck : Dev nD × Fin 3 => cellInv ER (exRd m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (exRd m) (K ck) (kcell ck) : sProp 𝕄)) ⊢ cellInv ER (exRd m) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device c: its positions, and the tokens of the duties it pays. -/
def payToks (c : Dev nD) : sProp 𝕄 :=
  iprop(dutyTok ER (barCell (peer c)) 0 () ∗ dutyTok ER (barCell (peer c)) 1 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtB0, HtB1, HtV, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtB0]; · iexact HtB0
  isplitl [HtB1]; · iexact HtB1
  isplitl [HtV]; · iexact HtV
  iexact HtS

omit [FloatOps F] in
/-- The tokens dealt across the pairs: a barrier cell's two tokens and a receive cell's token go to the partner, a send
    cell's token stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv pairing (fun c : Dev nD => (dutyTok ER (barCell c) 0 () : sProp 𝕄)),
    bigSep_univ_equiv pairing (fun c : Dev nD => (dutyTok ER (barCell c) 1 () : sProp 𝕄)),
    bigSep_univ_equiv pairing (fun c : Dev nD => (dutyTok ER (recvCell c) 0 () : sProp 𝕄))]
  iintro ⟨H1, H2, H3, H4⟩
  isplitl [H1]; · iexact H1
  isplitl [H2]; · iexact H2
  isplitl [H4]; · iexact H4
  iexact H3

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (exRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (exRd m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (exRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The step over all devices: the own and the unscoped semaphores of every device at once. -/
theorem glob : (bigSep Finset.univ fun c => iprop(Pipeline.ownSems0 (Ix := Ix) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- Of what the devices owe at launch, device c is dealt the credit for its barrier cell's entry unit (its partner's
    first signal) and for its landing (its partner's transfer); the credit for the parting unit nobody waits for. -/
theorem creds (c : Dev nD) :
    (Pipeline.launchCred O₀ c : sProp 𝕄) ⊢ iprop(cred (tallyAt (barCell c) i0 1) ∗ cred (tallyAt (recvCell c) i0 N)) := by
  have h0 : (O₀ : Dev nD → CellTallies nD τ sig Ix) = fun d => O₁ d + tallyAt (barCell (peer d)) i0 1 := rfl
  have h1 : (O₁ : Dev nD → CellTallies nD τ sig Ix) = fun d => O₂ d + tallyAt (recvCell (peer d)) i0 N := rfl
  rw [h0, Pipeline.launchCred_add, h1, Pipeline.launchCred_add]
  iintro ⟨⟨-, HR⟩, HB⟩
  isplitl [HB]
  · iapply (Pipeline.launchCred_tallyAt (.reg barS) peer peer peer_peer peer_peer i0 1 c); iexact HB
  · iapply (Pipeline.launchCred_tallyAt (.dma recvS.sem) peer peer peer_peer peer_peer i0 N c); iexact HR

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁ scratch
  iintro ⟨Hr, HzS, HzV⟩
  isplitr; · iempintro
  isplitl [HzS HzV]
  · isplitl [HzS] <;> iassumption
  iexact Hr

omit [FloatOps F] in
/-- Where a device's launch dues are positive: its partner's barrier cell at either index, its partner's receive cell. -/
theorem O₀_pos {c : Dev nD} {g : GSem nD τ sig} {i : Ix} (h : 0 < O₀ c g i) :
    (g = barCell (peer c) ∧ i = i1) ∨ (g = recvCell (peer c) ∧ i = i0) ∨ (g = barCell (peer c) ∧ i = i0) := by
  unfold O₀ O₁ O₂ at h
  rcases Pipeline.add_pos_cases h with h | h
  · rcases Pipeline.add_pos_cases h with h | h
    · exact .inl (Pipeline.tallyAt_pos h)
    · exact .inr (.inl (Pipeline.tallyAt_pos h))
  · exact .inr (.inr (Pipeline.tallyAt_pos h))

omit [FloatOps F] in
/-- A staging semaphore sits at level 0, below everything a device owes at launch (levels 1, 2 and 3). -/
theorem mayWait_stage (c : Dev nD) (q : DmaSem sig) (hq : SemLoc.dma q ≠ .dma recvS.sem) (O : CellTallies nD τ sig Ix) (hO : O = O₀ c ∨ O = 0) :
    (levAts L lv : sProp 𝕄) ⊢ MayWait (c : Thread nD τ) (.dma q) i0 O := by
  rcases hO with rfl | rfl
  · have h0 : lv ((c : Thread nD τ), .dma q) i0 = 0 := by dsimp only [lv]; rw [if_neg (fun h => by cases h), if_neg hq]
    refine Pipeline.mayWait_of_levAts (by rw [L_tc]; decide) fun g i hg => ?_
    rcases O₀_pos hg with ⟨rfl, rfl⟩ | ⟨rfl, rfl⟩ | ⟨rfl, rfl⟩
    · exact ⟨by rw [L_tc]; decide, by rw [h0, lv_bar1]; decide⟩
    · exact ⟨by rw [L_tc]; decide, by rw [h0, lv_recv]; decide⟩
    · exact ⟨by rw [L_tc]; decide, by rw [h0, lv_bar0]; decide⟩
  · rw [MayWait_zero]; iintro -; iempintro

theorem waits (c : Dev nD) : (levAts L lv : sProp 𝕄) ⊢ Pipeline.cellsWaits cfgs (dats m) i0 0 c :=
  Pipeline.cellsWaits_intro cfgs (dats m) i0 0 c fun w s t =>
    mayWait_stage c _ (by fin_cases w <;> fin_cases s <;> decide) _ (by
      rcases t with ⟨_ | _, ht⟩
      · exact Or.inl rfl
      · exact Or.inr rfl)

/-! ## The run -/

/-- Every device's arrays at what the proof data says they end at. -/
def QC : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 8000 in
/-- At the compiled mesh of eight devices, for any float values, from any memory with every counter at zero: given one
    device's run of the body, every weakly fair execution of the eight kernels — each pair shaking hands on the barrier
    semaphore, then exchanging halves — terminates, and every final state has each device's arrays at the computed
    contents. -/
theorem run_main_of (hbody : ∀ c : Dev nD, BodyObligation (dats (F := F) m 0 c) (defs₀ (F := F)) 𝒱₀ i0 Set.univ) :
    θ_run defs (onTc (τ := τ) (main (F := F))) ⟨m, fun _ => 0, ρ⟩ (QC m) :=
  Pipeline.θ_run_region_owing_glob_pf (fun p => (cfgs p).toPCfg) (fun p => (cfgs p).toPCfg_adm) (dats m) i0 cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-! ## The final arrays -/

/-- The input array is never written: it holds what it held. -/
theorem final_x (c : Dev nD) : (dats m 0 c).arrAt (0 : Fin 2) cfg0.N = m ((c : Thread nD τ).loc main_arg0) :=
  (dats (F := F) m 0 c).arrAt_in (0 : Fin 2) rfl _

/-- The result array is written once, whole, with what the body left in the output's staging buffer. -/
theorem final_out (c : Dev nD) : (dats m 0 c).arrAt (1 : Fin 2) cfg0.N = outAt m c := by
  show (dats m 0 c).arrAt (1 : Fin 2) ((t₀ : Fin cfg0.N).val + 1) = _
  rw [Dat.arrAt_succ, flush0_1 t₀, if_pos rfl]
  exact Memref.write_access_unit_zero_univ (Elt F) main_v1 (funext fun a => Nat.zero_mul _) _ _ _

/-- info: 'Cert.Kernel.Exch.run_main_of' depends on axioms: [propext, Classical.choice, Quot.sound] -/
#guard_msgs in #print axioms run_main_of

end Cert.Kernel.Exch

end
-- ==== Proof.KernelBody.lean ====
/-
  One device's run of the exchange, from what the launch deals it to what it hands back.
-/
import proofs.«900589_g7700000000000590_dist_rs_v7x_xyz2x2x2_y_m256_n256_bf16_1_alg».proof.Proof.KernelData
import Idealize.ShloMosaic.Lib.Pipeline.Value

noncomputable section

namespace Cert.Kernel.Exch

open Cert.Kernel Cert.Kernel.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Ix (Elt F) ℕ UU ℕ

variable (m : (ℓ : Loc nD τ sig) → Buf (Elt F) ℓ) (ρ : Dev nD → PrngReg)

/-! ## The waits' level evidence -/

theorem mem_L (c : Dev nD) (sm : SemLoc sig) (i : Ix) (hi : i = i0 ∨ i = i1) : i ∈ L ((c : Thread nD τ), sm) := by
  rw [L_tc]; rcases hi with rfl | rfl <;> decide

/-- While it waits for its partner's entry unit a device owes the partner's landing and the parting unit. -/
theorem mayWait_bar (c : Dev nD) :
    (levAts L lv : sProp 𝕄) ⊢ MayWait (c : Thread nD τ) (.reg barS) i0 (tallyAt (barCell (peer c)) i1 1 + tallyAt (recvCell (peer c)) i0 N) :=
  Pipeline.mayWait_of_levAts (mem_L c _ _ (.inl rfl)) fun g i hg => by
    rcases Pipeline.add_pos_cases hg with h | h
    · rw [tallyAt_apply] at h
      by_cases h' : g = barCell (peer c) ∧ i = i1
      · rw [h'.1, h'.2]; exact ⟨mem_L _ _ _ (.inr rfl), by show lv (barCell c) i0 < _; rw [lv_bar0, lv_bar1]; decide⟩
      · rw [if_neg h'] at h; exact absurd h (Nat.lt_irrefl 0)
    · rw [tallyAt_apply] at h
      by_cases h' : g = recvCell (peer c) ∧ i = i0
      · rw [h'.1, h'.2]; exact ⟨mem_L _ _ _ (.inl rfl), by show lv (barCell c) i0 < _; rw [lv_bar0, lv_recv]; decide⟩
      · rw [if_neg h'] at h; exact absurd h (Nat.lt_irrefl 0)

/-- While it waits on its send or its receive cell a device owes the parting unit only. -/
theorem mayWait_xfer (c : Dev nD) (sm : SemLoc sig) (hsm : sm = .dma sendS.sem ∨ sm = .dma recvS.sem) :
    (levAts L lv : sProp 𝕄) ⊢ MayWait (c : Thread nD τ) sm i0 (tallyAt (barCell (peer c)) i1 1) :=
  Pipeline.mayWait_of_levAts (mem_L c _ _ (.inl rfl)) fun g i hg => by
    rw [tallyAt_apply] at hg
    by_cases h' : g = barCell (peer c) ∧ i = i1
    · rw [h'.1, h'.2]; refine ⟨mem_L _ _ _ (.inr rfl), ?_⟩
      rcases hsm with rfl | rfl
      · show lv (sendCell c) i0 < _; rw [lv_send, lv_bar1]; decide
      · show lv (recvCell c) i0 < _; rw [lv_recv, lv_bar1]; decide
    · rw [if_neg h'] at hg; exact absurd hg (Nat.lt_irrefl 0)

/-! ## The body -/

section Body

/-- A whole buffer held through its whole view. -/
theorem xPts_eq (c : Dev nD) (f : Buf (Elt F) (((c : Dev nD) : Thread nD τ).loc cc0_stg0_0)) :
    (((xM : Memref sig .tc .vmem S1x256x512 .f32).view.loc (c : Thread nD τ) ↦{fullShare} f) : sProp 𝕄)
      = (((c : Thread nD τ).loc cc0_stg0_0) ↦{fullShare} f) := rfl
theorem oPts_eq (c : Dev nD) (f : Buf (Elt F) (((c : Dev nD) : Thread nD τ).loc cc0_stg1_0)) :
    (((oM : Memref sig .tc .vmem S256x256 .bf16).view.loc (c : Thread nD τ) ↦{fullShare} f) : sProp 𝕄)
      = (((c : Thread nD τ).loc cc0_stg1_0) ↦{fullShare} f) := rfl
theorem sPts_eq (c : Dev nD) (f : Buf (Elt F) (((c : Dev nD) : Thread nD τ).loc cc0_scratch0)) :
    (((sM : Memref sig .tc .vmem S256x256 .bf16).view.loc (c : Thread nD τ) ↦{fullShare} f) : sProp 𝕄)
      = (((c : Thread nD τ).loc cc0_scratch0) ↦{fullShare} f) := rfl
theorem rPts_eq (c : Dev nD) (f : Buf (Elt F) (((c : Dev nD) : Thread nD τ).loc cc0_scratch1)) :
    (((rM : Memref sig .tc .vmem S256x256 .bf16).view.loc (c : Thread nD τ) ↦{fullShare} f) : sProp 𝕄)
      = (((c : Thread nD τ).loc cc0_scratch1) ↦{fullShare} f) := rfl
theorem lPts_eq (c : Dev nD) (f : Buf (Elt F) (((c : Dev nD) : Thread nD τ).loc cc0_scratch2)) :
    (((lM : Memref sig .tc .vmem S256x256 .f32).view.loc (c : Thread nD τ) ↦{fullShare} f) : sProp 𝕄)
      = (((c : Thread nD τ).loc cc0_scratch2) ↦{fullShare} f) := rfl

theorem hz2 : (![0, 0] : Fin 2 → Nat) = fun _ => 0 := funext fun a => by fin_cases a <;> rfl

/-- What the stores of a device with y = 0 leave: the right half, narrowed, in the sending buffer; the left half in the
    keeping buffer; the kept half plus the landed half in the staged result. -/
theorem send_store_y0 (c : Dev nD) (hy : y0 c) (f0 : Buf (Elt F) (((c : Dev nD) : Thread nD τ).loc cc0_scratch0)) :
    (sM : Memref sig .tc .vmem S256x256 .bf16).view.writes (Elt F) f0
        [⟨r0, k0_pay4 (View.readAt (Elt F) (xM : Memref sig .tc .vmem S1x256x512 .f32).view rHi.toLoadRect (xstg m c))⟩] = sendVal m c := by
  unfold sendVal hiOf; rw [if_pos hy]
  show ((sM : Memref sig .tc .vmem S256x256 .bf16).access r0 : View sig .tc _ _ _).write (Elt F) f0 _ Finset.univ = _
  exact Memref.write_access_unit_zero_univ (Elt F) cc0_scratch0 hz2 _ f0 _
theorem kept_store_y0 (c : Dev nD) (hy : y0 c) (f2 : Buf (Elt F) (((c : Dev nD) : Thread nD τ).loc cc0_scratch2)) :
    (lM : Memref sig .tc .vmem S256x256 .f32).view.writes (Elt F) f2
        [⟨r0, k0_pay1 (View.readAt (Elt F) (xM : Memref sig .tc .vmem S1x256x512 .f32).view rLo.toLoadRect (xstg m c))⟩] = keptVal m c := by
  unfold keptVal loOf; rw [if_pos hy]
  show ((lM : Memref sig .tc .vmem S256x256 .f32).access r0 : View sig .tc _ _ _).write (Elt F) f2 _ Finset.univ = _
  exact Memref.write_access_unit_zero_univ (Elt F) cc0_scratch2 hz2 _ f2 _
theorem kept_y0 (c : Dev nD) (hy : y0 c) :
    k0_pay1 (View.readAt (Elt F) (xM : Memref sig .tc .vmem S1x256x512 .f32).view rLo.toLoadRect (xstg m c)) = keptVal m c := by
  unfold keptVal loOf; rw [if_pos hy]
/-- What the stores of a device with y = 1 leave: the left half, narrowed, in the sending buffer; the right half in the
    keeping buffer. -/
theorem send_store_y1 (c : Dev nD) (hy : ¬ y0 c) (f0 : Buf (Elt F) (((c : Dev nD) : Thread nD τ).loc cc0_scratch0)) :
    (sM : Memref sig .tc .vmem S256x256 .bf16).view.writes (Elt F) f0
        [⟨r0, k0_pay5 (View.readAt (Elt F) (xM : Memref sig .tc .vmem S1x256x512 .f32).view rLo.toLoadRect (xstg m c))⟩] = sendVal m c := by
  unfold sendVal loOf; rw [if_neg hy]
  show ((sM : Memref sig .tc .vmem S256x256 .bf16).access r0 : View sig .tc _ _ _).write (Elt F) f0 _ Finset.univ = _
  exact Memref.write_access_unit_zero_univ (Elt F) cc0_scratch0 hz2 _ f0 _
theorem kept_store_y1 (c : Dev nD) (hy : ¬ y0 c) (f2 : Buf (Elt F) (((c : Dev nD) : Thread nD τ).loc cc0_scratch2)) :
    (lM : Memref sig .tc .vmem S256x256 .f32).view.writes (Elt F) f2
        [⟨r0, k0_pay2 (View.readAt (Elt F) (xM : Memref sig .tc .vmem S1x256x512 .f32).view rHi.toLoadRect (xstg m c))⟩] = keptVal m c := by
  unfold keptVal hiOf; rw [if_neg hy]
  show ((lM : Memref sig .tc .vmem S256x256 .f32).access r0 : View sig .tc _ _ _).write (Elt F) f2 _ Finset.univ = _
  exact Memref.write_access_unit_zero_univ (Elt F) cc0_scratch2 hz2 _ f2 _
theorem kept_y1 (c : Dev nD) (hy : ¬ y0 c) :
    k0_pay2 (View.readAt (Elt F) (xM : Memref sig .tc .vmem S1x256x512 .f32).view rHi.toLoadRect (xstg m c)) = keptVal m c := by
  unfold keptVal hiOf; rw [if_neg hy]
/-- The staged result after the last store: the kept half, read back whole through the one store that wrote it, plus the
    landed half. -/
theorem out_store (c : Dev nD) (g1 : Buf (Elt F) (((c : Dev nD) : Thread nD τ).loc cc0_stg1_0)) (P : FVec F S256x256 .f32) (hP : P = keptVal m c) :
    (oM : Memref sig .tc .vmem S256x256 .bf16).view.writes (Elt F) g1
        [⟨r0, k0_pay3 ((lM : Memref sig .tc .vmem S256x256 .f32).view.readCov [⟨r0, P⟩] r0.toLoadRect)
            (View.readAt (Elt F) (rM : Memref sig .tc .vmem S256x256 .bf16).view r0.toLoadRect (landed m c))⟩] = outAt m c := by
  subst hP
  unfold outAt
  rw [View.readCov_unit_zero (S := S256x256) (lM : Memref sig .tc .vmem S256x256 .f32).view hz2 _ _,
      show View.readAt (Elt F) (rM : Memref sig .tc .vmem S256x256 .bf16).view r0.toLoadRect (landed m c) = landed m c from
        Memref.readAt_unit_zero (Elt F) cc0_scratch1 hz2 _ _]
  show ((oM : Memref sig .tc .vmem S256x256 .bf16).access r0 : View sig .tc _ _ _).write (Elt F) g1 _ Finset.univ = _
  exact Memref.write_access_unit_zero_univ (Elt F) cc0_stg1_0 hz2 _ g1 _

variable (K : Dev nD × Fin 3 → ℕ)

theorem sSet_eq (c : Dev nD) (f : Buf (Elt F) (((c : Dev nD) : Thread nD τ).loc cc0_scratch0)) :
    (((sM : Memref sig .tc .vmem S256x256 .bf16).view.loc (c : Thread nD τ) ↦[(sM : Memref sig .tc .vmem S256x256 .bf16).view.set]{fullShare} f) : sProp 𝕄)
      = ((sM : Memref sig .tc .vmem S256x256 .bf16).view.loc (c : Thread nD τ) ↦{fullShare} f) := by rw [View.set_whole]
theorem rSet_eq (c : Dev nD) (f : Buf (Elt F) (((c : Dev nD) : Thread nD τ).loc cc0_scratch1)) :
    (((rM : Memref sig .tc .vmem S256x256 .bf16).view.loc (c : Thread nD τ) ↦[(rM : Memref sig .tc .vmem S256x256 .bf16).view.set]{fullShare} f) : sProp 𝕄)
      = ((rM : Memref sig .tc .vmem S256x256 .bf16).view.loc (c : Thread nD τ) ↦{fullShare} f) := by rw [View.set_whole]

/-- A whole buffer copied over a whole buffer leaves the source's contents. -/
theorem copied_eq (c : Dev nD) (fd : Buf (Elt F) ((rM : Memref sig .tc .vmem S256x256 .bf16).view.loc (c : Thread nD τ))) (fs : (cc0_scratch0 : Ref sig .tc).ty.Contents (Elt F)) :
    (rM : Memref sig .tc .vmem S256x256 .bf16).view.write (Elt F) fd ((sM : Memref sig .tc .vmem S256x256 .bf16).view.read (Elt F) fs) Finset.univ = fs := by
  show (View.whole cc0_scratch1).write (Elt F) fd ((View.whole cc0_scratch0).read (Elt F) fs) Finset.univ = fs
  rw [View.read_whole]
  exact View.write_whole_univ _ _ _

/-- The transfer of the sending buffer into the partner's landing buffer, addressed to `n = peer c`: it pays the send
    cell's duty with the sending buffer and the partner's receive cell's duty with the landing buffer rewritten and the
    fact that this device has consumed round 0 of its barrier cell. -/
theorem wp_send_ex (c n : Dev nD) (hn : n = peer c) {hsc : (rM : Memref sig (Dev.tc n : Thread nD τ).2.kind .vmem S256x256 .bf16).view.ref.isScScratch = false}
    {hsrc : (sM : Memref sig .tc .vmem S256x256 .bf16).view.WordExact} {hdst : (rM : Memref sig .tc .vmem S256x256 .bf16).view.WordExact}
    {hsem : DmaTarget.Typed .vmem (.dma recvS.sem) (.remote (Dev.tc n : Thread nD τ) (rM : Memref sig .tc .vmem S256x256 .bf16) (.dma sendS.sem) hsc)}
    {α : Type} {Q : α → sProp 𝕄} {k : PUnit → Prog (TpuEff nD τ sig (Elt F) Λ₀ .tc) α}
    (fn : Buf (Elt F) ((rM : Memref sig .tc .vmem S256x256 .bf16).view.loc (peer c : Thread nD τ))) (O : CellTallies nD τ sig Ix) (W : Waits sig Ix) :
    iprop(cellInv ER (exRd m) (K (c, 1)) (sendCell c) ∗ cellInv ER (exRd m) (K (peer c, 2)) (recvCell (peer c))
        ∗ ((sM : Memref sig .tc .vmem S256x256 .bf16).view.loc (c : Thread nD τ) ↦[(sM : Memref sig .tc .vmem S256x256 .bf16).view.set]{fullShare} sendVal m c)
        ∗ (((rM : Memref sig .tc .vmem S256x256 .bf16).view.loc (peer c : Thread nD τ) ↦[(rM : Memref sig .tc .vmem S256x256 .bf16).view.set]{fullShare} fn) ∗ reached ER (barCell c) 1)
        ∗ owes (c : Thread nD τ) (O + tallyAt (recvCell (peer c)) i0 N) W
        ∗ dutyTok ER (sendCell c) 0 () ∗ reached ER (sendCell c) 0
        ∗ dutyTok ER (recvCell (peer c)) 0 () ∗ reached ER (recvCell (peer c)) 0)
      ⊢ iprop(((cred (tallyAt (sendCell c) i0 N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM (.remote (Dev.tc n : Thread nD τ) rM (.dma sendS.sem) hsc) (.dma recvS.sem) hsrc hdst hsem) k) Q) := by
  subst hn
  exact Rounds.wp_send_pointsTo_with 𝒱₀ ER (exRd m) (c : Thread nD τ) none (κ₁ := K (c, 1)) (κ₂ := K (peer c, 2))
    (r₁ := 0) (r₂ := 0) (d₁ := ()) (d₂ := ()) (fd := fn) (F := reached ER (barCell c) 1)
    (by rw [duties_send]; exact Finset.mem_singleton_self _) (by rw [duties_recv]; exact Finset.mem_singleton_self _)
    i0 i0 N rfl (amount_send m c ()) (amount_recv m (peer c) ()) O rfl (W := W)
    (by rw [payload_send, sSet_eq])
    (by rw [payload_recv_peer, copied_eq, rSet_eq])

attribute [local irreducible] peer
attribute [local sl_canon] dev1_eq dev2_eq dev3_eq

attribute [local sl_rounds] duties_bar0 duties_bar1 duties_send duties_recv amount_bar amount_send amount_recv
  expect_bar0 expect_send expect_recv payload_bar0 payload_bar1 payload_send payload_recv
attribute [local sl_rounds high] payload_bar0_peer payload_recv_peer

/-- The printed conditions on the y coordinate, decided over the mesh. -/
abbrev isY0 (c : Dev nD) : BitVec 1 :=
  Scalar.cmpi .ne (Scalar.extui (Scalar.cmpi .eq (Scalar.remsi (Scalar.divsi (Dev.word c) 2#32) 2#32) 0#32) : BitVec 32) 0#32
abbrev isY1 (c : Dev nD) : BitVec 1 :=
  Scalar.cmpi .ne (Scalar.extui (Scalar.cmpi .eq (Scalar.remsi (Scalar.divsi (Dev.word c) 2#32) 2#32) 1#32) : BitVec 32) 0#32
theorem isY0_of_y0 (c : Dev nD) (h : y0 c) : (isY0 c = 1#1) = True := eq_true ((by decide : ∀ c : Dev nD, y0 c → isY0 c = 1#1) c h)
theorem isY1_of_y0 (c : Dev nD) (h : y0 c) : (isY1 c = 1#1) = False := eq_false ((by decide : ∀ c : Dev nD, y0 c → ¬ isY1 c = 1#1) c h)
theorem isY0_of_y1 (c : Dev nD) (h : ¬ y0 c) : (isY0 c = 1#1) = False := eq_false ((by decide : ∀ c : Dev nD, ¬ y0 c → ¬ isY0 c = 1#1) c h)
theorem isY1_of_y1 (c : Dev nD) (h : ¬ y0 c) : (isY1 c = 1#1) = True := eq_true ((by decide : ∀ c : Dev nD, ¬ y0 c → isY1 c = 1#1) c h)

set_option maxHeartbeats 1600000 in
/-- The body at a device with y = 0, run from `bodyPre` to `bodyPost`. -/
theorem sound_body_y0 (c : Dev nD) (hy : y0 c) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4) Kt := by
  simp only [cc0_body_eq_skeleton]; unfold cc0_body_skel
  simp only [k0_part1_eq_skeleton]; unfold k0_part1_skel
  simp only [isY0_of_y0 c hy, isY1_of_y0 c hy, ↓reduceDIte, semSignalWord, semWaitWord, Prog.lift, Prog.bind_op, Prog.bind_ret, Prog.pure_eq_ret, wp_deviceId,
    dev1_eq c, dev2_eq c, dev3_eq c]
  unfold bodyPre ghost invs scratch
  iintro ⟨⟨⟨⟨⟨#HIbar, #HIsnd, #HIrcv, #HIbarP, #HIrcvP⟩, HatB, HatS, HatV, #HrBP, #HrVP, #HrS, #HrV, HtBP0, HtBP1, HtVP, HtS⟩, HcB, HcV, #Hlev, ⟨%f0, Hs⟩, ⟨%f1, Hr⟩, ⟨%f2, Hl⟩⟩,
    Ho, ⟨%d0, %g0, %hg0, Hx⟩, ⟨%d1, %g1, %hg1, Hout⟩⟩, Hk⟩
  have hx : g0 = xstg m c := by rw [hg0]; unfold Dat.before; rw [if_pos (fetch0_0 t₀)]; rfl
  subst hx
  unfold Dat.owesAt Pipeline.owesWithin
  icases Ho with ⟨%W, %hW, HO⟩
  rw [show (dats m 0 c).owed t₀.castSucc = O₀ c from rfl]
  unfold O₀ O₁ O₂
  have hmwB := mayWait_bar (F := F) c
  have hmwS := mayWait_xfer (F := F) c _ (.inl rfl)
  have hmwR := mayWait_xfer (F := F) c _ (.inr rfl)
  ihave Hx := (Entails.of_eq (xPts_eq c _).symm) $$ Hx
  ihave Hout := (Entails.of_eq (oPts_eq c _).symm) $$ Hout
  ihave Hs := (Entails.of_eq (sPts_eq c _).symm) $$ Hs
  ihave Hr := (Entails.of_eq (rPts_eq c _).symm) $$ Hr
  ihave Hl := (Entails.of_eq (lPts_eq c _).symm) $$ Hl
  sl_exec (disch := simp only [dev2_eq])
  rw [send_store_y0 m c hy f0]
  ihave Hs := (Entails.of_eq (sSet_eq c _).symm) $$ Hs
  ihave HatB_pay1 := (Entails.of_eq (rSet_eq (peer c) _).symm) $$ HatB_pay1
  iapply (wp_send_ex m K c _ (dev2_eq c) HatB_pay1_v (tallyAt (barCell (peer c)) i1 1) _) $$ [Hs HatB_pay1 HatB_reached HO HtS HtVP]
  · isplitr; · iexact HIsnd
    isplitr; · iexact HIrcvP
    isplitl [Hs]; · iexact Hs
    isplitl [HatB_pay1 HatB_reached]
    · isplitl [HatB_pay1]; · iexact HatB_pay1
      iexact HatB_reached
    isplitl [HO]; · iexact HO
    isplitl [HtS]; · iexact HtS
    isplitr; · iexact HrS
    isplitl [HtVP]; · iexact HtVP
    iexact HrVP
  iintro ⟨HcS, HO⟩
  sl_exec
  sl_unfold_words
  rw [kept_store_y0 m c hy f2, out_store m c g1 _ (kept_y0 m c hy)]
  -- the two own cells close: their counters at zero are the device's again
  imod (Rounds.cell_close ER (exRd m) (Set.mem_univ (K (c, 1))) (fun h => h) (R := 1) (duties_later_send m c)) $$ [HatS] with HzS
  · isplitr; · iexact HIsnd
    iexact HatS
  imod (Rounds.cell_close ER (exRd m) (Set.mem_univ (K (c, 2))) (fun h => h) (R := 1) (duties_later_recv m c)) $$ [HatV] with HzV
  · isplitr; · iexact HIrcv
    iexact HatV
  rw [wp_ret]; imodintro
  iapply Hk
  unfold bodyPost Φ₁ scratch Dat.owesAt Pipeline.owesWithin
  rw [show (dats m 0 c).owed t₀.succ = 0 from rfl]
  isplitl [HatS_pay1 HatV_pay1 Hl HzS HzV]
  · isplitl [HatS_pay1 HatV_pay1 Hl]
    · isplitl [HatS_pay1]; · iexists _; iexact HatS_pay1
      isplitl [HatV_pay1]; · iexists _; iexact HatV_pay1
      iexists _; iexact Hl
    isplitl [HzS]; · iexact HzS
    iexact HzV
  isplitl [HO]
  · iexists (insert (SemLoc.dma recvS.sem, i0) (insert (SemLoc.dma sendS.sem, i0) (insert (SemLoc.reg barS, i0) W)))
    isplitr; · ipureintro; exact fun _ _ => Or.inl trivial
    iexact HO
  isplitl [Hx]
  · iexists _; isplitr; · (ipureintro; rfl)
    iexact Hx
  iexists _; isplitr; · (ipureintro; rfl)
  iexact Hout

set_option maxHeartbeats 1600000 in
/-- The body at a device with y = 1, run from `bodyPre` to `bodyPost`. -/
theorem sound_body_y1 (c : Dev nD) (hy : ¬ y0 c) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4) Kt := by
  simp only [cc0_body_eq_skeleton]; unfold cc0_body_skel
  simp only [k0_part1_eq_skeleton]; unfold k0_part1_skel
  simp only [isY0_of_y1 c hy, isY1_of_y1 c hy, ↓reduceDIte, semSignalWord, semWaitWord, Prog.lift, Prog.bind_op, Prog.bind_ret, Prog.pure_eq_ret, wp_deviceId,
    dev1_eq c, dev2_eq c, dev3_eq c]
  unfold bodyPre ghost invs scratch
  iintro ⟨⟨⟨⟨⟨#HIbar, #HIsnd, #HIrcv, #HIbarP, #HIrcvP⟩, HatB, HatS, HatV, #HrBP, #HrVP, #HrS, #HrV, HtBP0, HtBP1, HtVP, HtS⟩, HcB, HcV, #Hlev, ⟨%f0, Hs⟩, ⟨%f1, Hr⟩, ⟨%f2, Hl⟩⟩,
    Ho, ⟨%d0, %g0, %hg0, Hx⟩, ⟨%d1, %g1, %hg1, Hout⟩⟩, Hk⟩
  have hx : g0 = xstg m c := by rw [hg0]; unfold Dat.before; rw [if_pos (fetch0_0 t₀)]; rfl
  subst hx
  unfold Dat.owesAt Pipeline.owesWithin
  icases Ho with ⟨%W, %hW, HO⟩
  rw [show (dats m 0 c).owed t₀.castSucc = O₀ c from rfl]
  unfold O₀ O₁ O₂
  have hmwB := mayWait_bar (F := F) c
  have hmwS := mayWait_xfer (F := F) c _ (.inl rfl)
  have hmwR := mayWait_xfer (F := F) c _ (.inr rfl)
  ihave Hx := (Entails.of_eq (xPts_eq c _).symm) $$ Hx
  ihave Hout := (Entails.of_eq (oPts_eq c _).symm) $$ Hout
  ihave Hs := (Entails.of_eq (sPts_eq c _).symm) $$ Hs
  ihave Hr := (Entails.of_eq (rPts_eq c _).symm) $$ Hr
  ihave Hl := (Entails.of_eq (lPts_eq c _).symm) $$ Hl
  sl_exec (disch := simp only [dev2_eq])
  rw [send_store_y1 m c hy f0]
  ihave Hs := (Entails.of_eq (sSet_eq c _).symm) $$ Hs
  ihave HatB_pay1 := (Entails.of_eq (rSet_eq (peer c) _).symm) $$ HatB_pay1
  iapply (wp_send_ex m K c _ (dev2_eq c) HatB_pay1_v (tallyAt (barCell (peer c)) i1 1) _) $$ [Hs HatB_pay1 HatB_reached HO HtS HtVP]
  · isplitr; · iexact HIsnd
    isplitr; · iexact HIrcvP
    isplitl [Hs]; · iexact Hs
    isplitl [HatB_pay1 HatB_reached]
    · isplitl [HatB_pay1]; · iexact HatB_pay1
      iexact HatB_reached
    isplitl [HO]; · iexact HO
    isplitl [HtS]; · iexact HtS
    isplitr; · iexact HrS
    isplitl [HtVP]; · iexact HtVP
    iexact HrVP
  iintro ⟨HcS, HO⟩
  sl_exec
  sl_unfold_words
  rw [kept_store_y1 m c hy f2, out_store m c g1 _ (kept_y1 m c hy)]
  -- the two own cells close: their counters at zero are the device's again
  imod (Rounds.cell_close ER (exRd m) (Set.mem_univ (K (c, 1))) (fun h => h) (R := 1) (duties_later_send m c)) $$ [HatS] with HzS
  · isplitr; · iexact HIsnd
    iexact HatS
  imod (Rounds.cell_close ER (exRd m) (Set.mem_univ (K (c, 2))) (fun h => h) (R := 1) (duties_later_recv m c)) $$ [HatV] with HzV
  · isplitr; · iexact HIrcv
    iexact HatV
  rw [wp_ret]; imodintro
  iapply Hk
  unfold bodyPost Φ₁ scratch Dat.owesAt Pipeline.owesWithin
  rw [show (dats m 0 c).owed t₀.succ = 0 from rfl]
  isplitl [HatS_pay1 HatV_pay1 Hl HzS HzV]
  · isplitl [HatS_pay1 HatV_pay1 Hl]
    · isplitl [HatS_pay1]; · iexists _; iexact HatS_pay1
      isplitl [HatV_pay1]; · iexists _; iexact HatV_pay1
      iexists _; iexact Hl
    isplitl [HzS]; · iexact HzS
    iexact HzV
  isplitl [HO]
  · iexists (insert (SemLoc.dma recvS.sem, i0) (insert (SemLoc.dma sendS.sem, i0) (insert (SemLoc.reg barS, i0) W)))
    isplitr; · ipureintro; exact fun _ _ => Or.inl trivial
    iexact HO
  isplitl [Hx]
  · iexists _; isplitr; · (ipureintro; rfl)
    iexact Hx
  iexists _; isplitr; · (ipureintro; rfl)
  iexact Hout

end Body

/-! ## The body obligation -/

theorem owns_whole_eq (c : Dev nD) (b : Ref sig .tc) (X : b.ty.Contents (Elt F)) :
    (owns (Ix := Ix) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
def bodyPre' (c : Dev nD) : sProp 𝕄 :=
  iprop(Φ₀ m c ∗ (dats m 0 c).owesAt i0 t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The pipeline's body obligation on device `c`: the run of the body at its y coordinate. -/
theorem body_obligation (c : Dev nD) : BodyObligation (dats (F := F) m 0 c) (defs₀ (F := F)) 𝒱₀ i0 Set.univ := fun t => by
  rw [fin_N t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4) (fun _ => bodyPost m c)
  unfold bodyPre' Φ₀ start
  iintro ⟨⟨⟨⟨%K, Hg⟩, Hrest⟩, Hscr⟩, Ho, Hx, Hout⟩
  by_cases hy : y0 c
  · iapply (sound_body_y0 m K c hy fun _ => bodyPost m c)
    unfold bodyPre
    isplitr []
    · isplitl [Hg Hrest Hscr]
      · isplitl [Hg]; · iexact Hg
        icases Hrest with ⟨H1, H2, H3⟩
        isplitl [H1]; · iexact H1
        isplitl [H2]; · iexact H2
        isplitl [H3]; · iexact H3
        iexact Hscr
      isplitl [Ho]; · iexact Ho
      isplitl [Hx] <;> iassumption
    · iintro H; iexact H
  · iapply (sound_body_y1 m K c hy fun _ => bodyPost m c)
    unfold bodyPre
    isplitr []
    · isplitl [Hg Hrest Hscr]
      · isplitl [Hg]; · iexact Hg
        icases Hrest with ⟨H1, H2, H3⟩
        isplitl [H1]; · iexact H1
        isplitl [H2]; · iexact H2
        isplitl [H3]; · iexact H3
        iexact Hscr
      isplitl [Ho]; · iexact Ho
      isplitl [Hx] <;> iassumption
    · iintro H; iexact H

/-- info: 'Cert.Kernel.Exch.body_obligation' depends on axioms: [propext, Classical.choice, Quot.sound] -/
#guard_msgs in #print axioms body_obligation

end Cert.Kernel.Exch

end
-- ==== Proof.KernelRun.lean ====
/-
  The run of the whole mesh: the launch over the body obligation. Every weakly fair execution of the eight devices'
  kernels terminates without fault, and in every final state each device's argument array is as launched and its
  result array holds the kept half plus the landed half.
-/
import proofs.«900589_g7700000000000590_dist_rs_v7x_xyz2x2x2_y_m256_n256_bf16_1_alg».proof.Proof.KernelLaunch
import proofs.«900589_g7700000000000590_dist_rs_v7x_xyz2x2x2_y_m256_n256_bf16_1_alg».proof.Proof.KernelBody

noncomputable section

namespace Cert.Kernel.Exch

open Cert.Kernel Cert.Kernel.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Ix (Elt F) ℕ UU ℕ

variable (m : (ℓ : Loc nD τ sig) → Buf (Elt F) ℓ) (ρ : Dev nD → PrngReg)

theorem run_main : θ_run defs (onTc (τ := τ) (main (F := F))) ⟨m, fun _ => 0, ρ⟩ (QC m) :=
  run_main_of m ρ (body_obligation m)

/-- info: 'Cert.Kernel.Exch.run_main' depends on axioms: [propext, Classical.choice, Quot.sound] -/
#guard_msgs in #print axioms run_main

end Cert.Kernel.Exch

end
-- ==== Proof.KernelIdealProto.lean ====
/-
  The exchange protocol of a two-way reduce-scatter over the mesh axis y.

  Eight devices sit on a 2 x 2 x 2 mesh; device `c` and its partner `peer c` (the device with the
  other y coordinate and the same x and z) each hold one [1, 256, 512] block of the input. A device
  keeps one column half of its block, sends the other half (narrowed to bf16) to its partner, and adds
  what the partner sent to the half it kept: the device with y = 0 ends with the left half of the sum
  of the two blocks, the device with y = 1 with the right half.

  Three semaphore cells per device carry the exchange. The barrier cell: the partner pays one unit on
  entering the kernel (round 0; with it the partner hands over its landing buffer and the fact that its
  receive cell is at round 0: what a transfer into that buffer needs) and one unit on leaving (round 1;
  it hands over nothing and is never waited for). The send cell: one duty, the sent half read in full,
  giving the sending buffer back. The receive cell: one duty, the partner's half landed in the landing
  buffer, together with the fact that the partner has passed its own barrier wait (what this device's
  parting signal to the partner's barrier cell needs).
-/
import proofs.«900589_g7700000000000590_dist_rs_v7x_xyz2x2x2_y_m256_n256_bf16_1_alg».proof.Proof.Gen.KernelIdeal
import proofs.«900589_g7700000000000590_dist_rs_v7x_xyz2x2x2_y_m256_n256_bf16_1_alg».proof.Proof.Gen.KernelIdeal.Skeleton
import proofs.«900589_g7700000000000590_dist_rs_v7x_xyz2x2x2_y_m256_n256_bf16_1_alg».proof.Proof.Gen.KernelIdeal.Launch
import proofs.«900589_g7700000000000590_dist_rs_v7x_xyz2x2x2_y_m256_n256_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds algebra and the exchange's own, side by side.
    Tallies are indexed by (round, duty): `i0` for the units of a round 0, `i1` for the parting barrier unit. -/

abbrev Ix : Type := ℕ × Unit
abbrev i0 : Ix := (0, ())
abbrev i1 : Ix := (1, ())

abbrev UB : Type := URounds (GSem nD τ sig) Unit
abbrev UU : Type := UR sig nD τ × UB

local notation "𝕄" => MT nD τ sig Ix (Elt F) ℕ UU ℕ

abbrev EP : Emb (UR sig nD τ) (MT nD τ sig Ix (Elt F) ℕ UU ℕ) := embL
abbrev ER : Emb UB (MT nD τ sig Ix (Elt F) ℕ UU ℕ) := embR

variable (m : (ℓ : Loc nD τ sig) → Buf (Elt F) ℓ) (ρ : Dev nD → PrngReg)

/-! ## The partner: the device across the y axis -/

/-- Device `c` is at (c / 4, c / 2 % 2, c % 2); its partner has the other y coordinate. -/
def peer (c : Dev nD) : Dev nD :=
  ⟨(4 * (c.val / 4) + (c.val % 2) + 2) - 2 * ((c.val / 2) % 2), by
    have h : c.val < 8 := c.isLt
    show _ < 8
    omega⟩

theorem peer_peer (c : Dev nD) : peer (peer c) = c := by revert c; decide
theorem peer_ne (c : Dev nD) : peer c ≠ c := by revert c; decide

/-- The three device chains of the kernel all name the partner. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)

def pairing : Dev nD ≃ Dev nD := ⟨peer, peer, peer_peer, peer_peer⟩

/-! ## The memrefs and the cells -/

abbrev xM : Memref sig .tc .vmem S1x256x512 .f32 := Memref.whole cc0_stg0_0
abbrev oM : Memref sig .tc .vmem S256x256 .bf16 := Memref.whole cc0_stg1_0
/-- the half to send, -/
abbrev sM : Memref sig .tc .vmem S256x256 .bf16 := Memref.whole cc0_scratch0
/-- the landing buffer for the partner's half, -/
abbrev rM : Memref sig .tc .vmem S256x256 .bf16 := Memref.whole cc0_scratch1
/-- the half kept. -/
abbrev lM : Memref sig .tc .vmem S256x256 .f32 := Memref.whole cc0_scratch2

abbrev barS : Sem sig := (SemArray.scalar (sig.barrier 0 rfl) : Sems sig S_).sem
abbrev sendS : DmaSems sig S_ := cc0_scratch3
abbrev recvS : DmaSems sig S_ := cc0_scratch4

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores: send, receive; -/
abbrev osem : Fin 2 → SemLoc sig := fun | 0 => .dma sendS.sem | 1 => .dma recvS.sem
/-- the three cells of the exchange: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (rM : Memref sig .tc .vmem S256x256 .bf16).view.dmaCredit
theorem N_pos : 0 < N := View.dmaCredit_pos _ (by decide)

/-! ## Contents -/

/-- The right column half of the staged block, and the left. -/
abbrev rHi : Rect S1x256x512 := Rect.unit (s := S1x256x512) ![0, 0, 256] S1x256x256.size inb_S1x256x512_S1x256x256_0_0_256
abbrev rLo : Rect S1x256x512 := Rect.unit (s := S1x256x512) ![0, 0, 0] S1x256x256.size inb_S1x256x512_S1x256x256_0_0_0
abbrev r0 : Rect S256x256 := Rect.unit (s := S256x256) ![0, 0] S256x256.size inb_S256x256_S256x256_0_0

/-- Device `c`'s staged block of `x`. -/
def xstg (c : Dev nD) : (cc0_stg0_0 : Ref sig .tc).ty.Contents (Elt F) :=
  (win0_0.blk (0 : Fin 1)).view.read (Elt F) (m ((c : Thread nD τ).loc main_arg0))

def hiOf (x : (cc0_stg0_0 : Ref sig .tc).ty.Contents (Elt F)) : Vec F S1x256x256 .f32 :=
  (xM : Memref sig .tc .vmem S1x256x512 .f32).view.readAt (Elt F) rHi.toLoadRect x
def loOf (x : (cc0_stg0_0 : Ref sig .tc).ty.Contents (Elt F)) : Vec F S1x256x256 .f32 :=
  (xM : Memref sig .tc .vmem S1x256x512 .f32).view.readAt (Elt F) rLo.toLoadRect x

/-- Whether the device has y coordinate 0. -/
abbrev y0 (c : Dev nD) : Prop := c.val / 2 % 2 = 0

/-- The half device `c` sends: the right half at y = 0, the left half at y = 1, narrowed. -/
def sendVal (c : Dev nD) : (cc0_scratch0 : Ref sig .tc).ty.Contents (Elt F) :=
  if y0 c then k0_pay4 (hiOf (xstg m c)) else k0_pay5 (loOf (xstg m c))
/-- The half it keeps: the left half at y = 0, the right half at y = 1. -/
def keptVal (c : Dev nD) : (cc0_scratch2 : Ref sig .tc).ty.Contents (Elt F) :=
  if y0 c then k0_pay1 (loOf (xstg m c)) else k0_pay2 (hiOf (xstg m c))
/-- What lands in its landing buffer: the partner's sent half. -/
def landed (c : Dev nD) : (cc0_scratch1 : Ref sig .tc).ty.Contents (Elt F) := sendVal m (peer c)
/-- Its result: the kept half plus the landed half. -/
def outAt (c : Dev nD) : (cc0_stg1_0 : Ref sig .tc).ty.Contents (Elt F) := k0_pay3 (keptVal m c) (landed m c)

/-! ## The schedule -/

/-- What the partner's entry signal hands device `d`: the partner's landing buffer, at whatever it holds, and that the
    partner's receive cell is at round 0. -/
def barPay (d : Dev nD) : sProp 𝕄 :=
  iprop((∃ f, ((rM : Memref sig .tc .vmem S256x256 .bf16).view.loc ((peer d : Dev nD) : Thread nD τ)) ↦{fullShare} f) ∗ reached ER (recvCell (peer d)) 0)
/-- What the landing hands device `d`: its landing buffer holding the partner's sent half, and that the partner has
    consumed round 0 of its barrier cell. -/
def recvPay (d : Dev nD) : sProp 𝕄 :=
  iprop((((rM : Memref sig .tc .vmem S256x256 .bf16).view.loc ((d : Dev nD) : Thread nD τ)) ↦{fullShare} landed m d) ∗ reached ER (barCell (peer d)) 1)
/-- What the departure hands device `d`: its sending buffer back. -/
def sendPay (d : Dev nD) : sProp 𝕄 := ((sM : Memref sig .tc .vmem S256x256 .bf16).view.loc ((d : Dev nD) : Thread nD τ)) ↦{fullShare} sendVal m d

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- A barrier cell has one duty of one unit in round 0 (the partner's entry) and one in round 1 (its parting signal);
    a send or a receive cell one duty of the block's credit in round 0. -/
def exRd : Rounds.Schedule (GSem nD τ sig) Unit 𝕄 where
  duties g r := if (r ≤ 1 ∧ IsBar g) ∨ (r = 0 ∧ IsXfer g) then {()} else ∅
  unitless _ := False
  amount g _ _ := if g.2 = .reg barS then 1 else N
  payload g r _ :=
    if g.2 = .reg barS then (if r = 0 then barPay g.1.1 else iprop(emp))
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance exRd_payload_storable (g : GSem nD τ sig) (r : ℕ) (d : Unit) :
    BI.Storable (upEmb : UEmb _ 𝕄) ((exRd (F := F) m).payload g r d) := by
  show BI.Storable upEmb (if g.2 = .reg barS then (if r = 0 then barPay g.1.1 else iprop(emp)) else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide
theorem not_bar_send : ¬ IsBar (sendCell c) := fun h => send_ne_bar h.2
theorem not_bar_recv : ¬ IsBar (recvCell c) := fun h => recv_ne_bar h.2
theorem not_xfer_bar : ¬ IsXfer (barCell c) := fun h => h.2.elim (fun h' => send_ne_bar h'.symm) (fun h' => recv_ne_bar h'.symm)

theorem duties_bar0 : (exRd (F := F) m).duties (barCell c) 0 = {()} := by dsimp only [exRd]; exact if_pos (.inl ⟨Nat.zero_le _, rfl, rfl⟩)
theorem duties_bar1 : (exRd (F := F) m).duties (barCell c) 1 = {()} := by dsimp only [exRd]; exact if_pos (.inl ⟨Nat.le_refl _, rfl, rfl⟩)
theorem duties_send : (exRd (F := F) m).duties (sendCell c) 0 = {()} := by dsimp only [exRd]; exact if_pos (.inr ⟨rfl, rfl, .inl rfl⟩)
theorem duties_recv : (exRd (F := F) m).duties (recvCell c) 0 = {()} := by dsimp only [exRd]; exact if_pos (.inr ⟨rfl, rfl, .inr rfl⟩)
theorem duties_later_send : ∀ r, 1 ≤ r → (exRd (F := F) m).duties (sendCell c) r = ∅ :=
  fun r hr => by dsimp only [exRd]; exact if_neg fun h => h.elim (fun h' => not_bar_send c h'.2) (fun h' => by omega)
theorem duties_later_recv : ∀ r, 1 ≤ r → (exRd (F := F) m).duties (recvCell c) r = ∅ :=
  fun r hr => by dsimp only [exRd]; exact if_neg fun h => h.elim (fun h' => not_bar_recv c h'.2) (fun h' => by omega)

theorem amount_bar (r : ℕ) (d : Unit) : (exRd (F := F) m).amount (barCell c) r d = 1 := by dsimp only [exRd]; exact if_pos rfl
theorem amount_send (d : Unit) : (exRd (F := F) m).amount (sendCell c) 0 d = N := by dsimp only [exRd]; exact if_neg send_ne_bar
theorem amount_recv (d : Unit) : (exRd (F := F) m).amount (recvCell c) 0 d = N := by dsimp only [exRd]; exact if_neg recv_ne_bar

theorem expect_bar0 : (exRd (F := F) m).expect (barCell c) 0 = 1 := by
  unfold Schedule.expect Schedule.amountOf; rw [duties_bar0, Finset.sum_singleton, amount_bar]
theorem expect_send : (exRd (F := F) m).expect (sendCell c) 0 = N := by
  unfold Schedule.expect Schedule.amountOf; rw [duties_send, Finset.sum_singleton, amount_send]
theorem expect_recv : (exRd (F := F) m).expect (recvCell c) 0 = N := by
  unfold Schedule.expect Schedule.amountOf; rw [duties_recv, Finset.sum_singleton, amount_recv]

/-- The entry payload on the device's own barrier cell: the partner's landing buffer. -/
theorem payload_bar0 (d : Unit) : (exRd (F := F) m).payload (barCell c) 0 d
    = iprop((∃ f, ((rM : Memref sig .tc .vmem S256x256 .bf16).view.loc ((peer c : Dev nD) : Thread nD τ)) ↦{fullShare} f) ∗ reached ER (recvCell (peer c)) 0) := by
  dsimp only [exRd]; rw [if_pos rfl, if_pos rfl]; rfl
/-- The entry payload on the partner's barrier cell: this device's own landing buffer. -/
theorem payload_bar0_peer (d : Unit) : (exRd (F := F) m).payload (barCell (peer c)) 0 d
    = iprop((∃ f, ((rM : Memref sig .tc .vmem S256x256 .bf16).view.loc ((c : Dev nD) : Thread nD τ)) ↦{fullShare} f) ∗ reached ER (recvCell c) 0) := by
  rw [payload_bar0, peer_peer]
theorem payload_bar1 (d : Unit) : (exRd (F := F) m).payload (barCell c) 1 d = iprop(emp) := by
  dsimp only [exRd]; rw [if_pos rfl]; exact if_neg (by decide)
theorem payload_send (d : Unit) : (exRd (F := F) m).payload (sendCell c) 0 d
    = (((sM : Memref sig .tc .vmem S256x256 .bf16).view.loc ((c : Dev nD) : Thread nD τ)) ↦{fullShare} sendVal m c) := by
  dsimp only [exRd]; rw [if_neg send_ne_bar, if_neg send_ne_recv, if_pos rfl]; rfl
theorem payload_recv (d : Unit) : (exRd (F := F) m).payload (recvCell c) 0 d
    = iprop((((rM : Memref sig .tc .vmem S256x256 .bf16).view.loc ((c : Dev nD) : Thread nD τ)) ↦{fullShare} landed m c) ∗ reached ER (barCell (peer c)) 1) := by
  dsimp only [exRd]; rw [if_neg recv_ne_bar, if_pos rfl]; rfl
/-- The landing payload on the partner's receive cell: what this device sends, and this device's own barrier round. -/
theorem payload_recv_peer (d : Unit) : (exRd (F := F) m).payload (recvCell (peer c)) 0 d
    = iprop((((rM : Memref sig .tc .vmem S256x256 .bf16).view.loc ((peer c : Dev nD) : Thread nD τ)) ↦{fullShare} sendVal m c) ∗ reached ER (barCell c) 1) := by
  rw [payload_recv, landed, peer_peer]

end Sched

/-! ## What each device owes at launch; the levels -/

/-- Device `c` owes its partner's barrier cell the entry unit and the parting unit, and its partner's receive cell the
    block's credit — summed so that each payment peels the last summand left. -/
def O₂ (c : Dev nD) : CellTallies nD τ sig Ix := tallyAt (barCell (peer c)) i1 1
def O₁ (c : Dev nD) : CellTallies nD τ sig Ix := O₂ c + tallyAt (recvCell (peer c)) i0 N
def O₀ (c : Dev nD) : CellTallies nD τ sig Ix := O₁ c + tallyAt (barCell (peer c)) i0 1

def L (g : GSem nD τ sig) : Finset Ix := if g.1.2 = .tc then {i0, i1} else ∅
/-- A barrier cell's entry unit at 1, a receive cell at 2, a barrier cell's parting unit at 3, everything else (staging,
    send) at 0: a device waits for the entry unit while it owes a landing and a parting unit, for its landing while it
    owes a parting unit. -/
def lv (g : GSem nD τ sig) (i : Ix) : ℕ :=
  if g.2 = .reg barS then (if i.1 = 0 then 1 else 3) else if g.2 = .dma recvS.sem then 2 else 0

theorem lv_bar0 (d : Dev nD) : lv (barCell d) i0 = 1 := by dsimp only [lv]; rw [if_pos rfl, if_pos rfl]
theorem lv_bar1 (d : Dev nD) : lv (barCell d) i1 = 3 := by dsimp only [lv]; rw [if_pos rfl, if_neg (by decide)]
theorem lv_recv (d : Dev nD) (i : Ix) : lv (recvCell d) i = 2 := by dsimp only [lv]; rw [if_neg recv_ne_bar, if_pos rfl]
theorem lv_send (d : Dev nD) (i : Ix) : lv (sendCell d) i = 0 := by dsimp only [lv]; rw [if_neg send_ne_bar, if_neg send_ne_recv]

theorem L_of_ne (g : GSem nD τ sig) (h : g.1.2 ≠ .tc) : L g = ∅ := if_neg h
theorem L_tc (c : Dev nD) (sm : SemLoc sig) : L ((c : Thread nD τ), sm) = {i0, i1} := if_pos rfl

end Cert.KernelIdeal.Exch

end
-- ==== Proof.KernelIdealData.lean ====
/-
  The pipeline's proof data for the exchange: what a device holds when its one grid point begins (its cells'
  invariants, its positions, the tokens of the duties it pays, its launch credit, its three scratch buffers) and
  what it hands back when the point ends; the two windows' contents after the point: the staged block of x, and
  the kept half plus the landed half.
-/
import proofs.«900589_g7700000000000590_dist_rs_v7x_xyz2x2x2_y_m256_n256_bf16_1_alg».proof.Proof.KernelIdealProto

noncomputable section

namespace Cert.KernelIdeal.Exch

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Ix (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s run opens, under the names `K` the launch allocated them at: its own three,
    its partner's barrier cell (its two signals) and its partner's receive cell (its transfer). -/
def invs (K : Dev nD × Fin 3 → ℕ) (c : Dev nD) : sProp 𝕄 :=
  iprop(cellInv ER (exRd m) (K (c, 0)) (barCell c) ∗ cellInv ER (exRd m) (K (c, 1)) (sendCell c) ∗ cellInv ER (exRd m) (K (c, 2)) (recvCell c)
    ∗ cellInv ER (exRd m) (K (peer c, 0)) (barCell (peer c)) ∗ cellInv ER (exRd m) (K (peer c, 2)) (recvCell (peer c)))

instance invs_persistent (K : Dev nD × Fin 3 → ℕ) (c : Dev nD) : BI.Persistent (invs m K c) := by unfold invs; infer_instance

/-- The ghost state device `c` starts from: the invariants; its positions at round 0 of its three cells; the reached
    rounds of the cells it pays at round 0 and of its own send and receive cells; the four duty tokens it pays with — its
    partner's barrier duties of rounds 0 and 1, its partner's receive duty, its own send duty. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (barCell (peer c)) 1 () ∗ dutyTok ER (recvCell (peer c)) 0 () ∗ dutyTok ER (sendCell c) 0 ())

/-- What device `c`'s point starts from: that at some names, the credit for its barrier's entry unit and for its
    landing, and the level facts. -/
def start (c : Dev nD) : sProp 𝕄 :=
  iprop((∃ K, ghost m K c) ∗ cred (tallyAt (barCell c) i0 1) ∗ cred (tallyAt (recvCell c) i0 N) ∗ levAts L lv)

/-- The three scratch buffers, each whole at some contents. -/
def scratch (c : Dev nD) : sProp 𝕄 :=
  iprop((∃ f : Buf (Elt F) (((c : Dev nD) : Thread nD τ).loc cc0_scratch0), (((c : Thread nD τ).loc cc0_scratch0) ↦{fullShare} f))
    ∗ (∃ f : Buf (Elt F) (((c : Dev nD) : Thread nD τ).loc cc0_scratch1), (((c : Thread nD τ).loc cc0_scratch1) ↦{fullShare} f))
    ∗ (∃ f : Buf (Elt F) (((c : Dev nD) : Thread nD τ).loc cc0_scratch2), (((c : Thread nD τ).loc cc0_scratch2) ↦{fullShare} f)))

def Φ₀ (c : Dev nD) : sProp 𝕄 := iprop(start m c ∗ scratch c)
/-- After the point: the scratch buffers, and the two own cells at zero, closed (the barrier cell is the runtime's:
    nothing to hand back). -/
def Φ₁ (c : Dev nD) : sProp 𝕄 := iprop(scratch c ∗ semVal (sendCell c) 0 ∗ semVal (recvCell c) 0)

def dats (_ : Fin 1) (c : Dev nD) : Dat τ (Elt F) Ix ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body's run starts from, at names `K`; -/
def bodyPre (K : Dev nD × Fin 3 → ℕ) (c : Dev nD) : sProp 𝕄 :=
  iprop((ghost m K c ∗ cred (tallyAt (barCell c) i0 1) ∗ cred (tallyAt (recvCell c) i0 N) ∗ levAts L lv ∗ scratch c)
    ∗ (dats m 0 c).owesAt i0 t₀.castSucc
    ∗ (∃ d, stg c cc0_stg0_0 ((dats m 0 c).before (0 : Fin 2) t₀ d))
    ∗ (∃ d, stg c cc0_stg1_0 ((dats m 0 c).before (1 : Fin 2) t₀ d)))

/-- and what it ends with. -/
def bodyPost (c : Dev nD) : sProp 𝕄 :=
  iprop(Φ₁ c ∗ (dats m 0 c).owesAt i0 t₀.succ ∗ stg c cc0_stg0_0 (xstg m c) ∗ stg c cc0_stg1_0 (outAt m c))

end Cert.KernelIdeal.Exch

end
-- ==== Proof.KernelIdealLaunch.lean ====
/-
  The launch of the exchange: the ghost state of the three cells per device funded and dealt out, the cells'
  invariants allocated for all devices at once (the barrier cell is shared between a device and its partner), the
  launch credit split per cell, and from one device's run of the body the run of the whole mesh, every device's
  arrays at their final contents.
-/
import proofs.«900589_g7700000000000590_dist_rs_v7x_xyz2x2x2_y_m256_n256_bf16_1_alg».proof.Proof.KernelIdealData

noncomputable section

namespace Cert.KernelIdeal.Exch

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Ix (Elt F) ℕ UU ℕ

variable (m : (ℓ : Loc nD τ sig) → Buf (Elt F) ℓ) (ρ : Dev nD → PrngReg)

/-! ## The cells and the tokens -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def exCells : Finset (GSem nD τ sig) := Finset.univ.map ⟨kcell, kcell_injective⟩

/-- A device's own cells' duty tokens as minted: its barrier cell's duty of round 0 and of round 1, its send cell's
    and its receive cell's duty of round 0. -/
abbrev tokOf (cj : Dev nD × Fin 4) : GSem nD τ sig × ℕ × Unit := match cj.2 with
  | 0 => (barCell cj.1, 0, ()) | 1 => (barCell cj.1, 1, ()) | 2 => (sendCell cj.1, 0, ()) | 3 => (recvCell cj.1, 0, ())
theorem tokOf_injective : Function.Injective (tokOf : Dev nD × Fin 4 → GSem nD τ sig × ℕ × Unit) := by
  rintro ⟨c, j⟩ ⟨c', j'⟩ h
  have h1 : c = c' := by
    have := congrArg (fun x : GSem nD τ sig × ℕ × Unit => x.1.1.1) h
    fin_cases j <;> fin_cases j' <;> exact this
  subst h1
  have : j = j' := by
    fin_cases j <;> fin_cases j' <;> first | rfl | exact absurd (congrArg (fun x : GSem nD τ sig × ℕ × Unit => (x.1.2, x.2.1)) h) (fun h' => by cases h')
  subst this; rfl
def exToks : Finset (GSem nD τ sig × ℕ × Unit) := Finset.univ.map ⟨tokOf, tokOf_injective⟩

def u₀ : UU :=
  (initOf (Pipeline.cells cfgs cellOf_inj) (Pipeline.launchToks cfgs cellOf_inj), initOf exCells exToks)

/-- The duty tokens of device c's own cells. -/
def toks (c : Dev nD) : sProp 𝕄 :=
  iprop(dutyTok ER (barCell c) 0 () ∗ dutyTok ER (barCell c) 1 () ∗ dutyTok ER (sendCell c) 0 () ∗ dutyTok ER (recvCell c) 0 ())

/-- What the launch element deals device c: -/
def G (c : Dev nD) : sProp 𝕄 :=
  iprop((bigSep Finset.univ fun k : Fin 3 => roundState ER (exRd m) (kcell (c, k)) 0)
    ∗ (bigSep Finset.univ fun k : Fin 3 => iprop(atPos ER (kcell (c, k)) 0 ∅ 0 ∗ reached ER (kcell (c, k)) 0)) ∗ toks c)

/-- what the step over all devices makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

theorem fund : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Fin 3 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_fin4]; rfl
  iintro HX
  imod (Rounds.fund ER (exRd m) exCells exToks) $$ HX with ⟨Hst, Hr, Hat, Htok⟩
  imodintro
  ihave Hst' := (Entails.of_eq (hX fun g => roundState ER (exRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The invariants allocated, for all devices at once -/

omit [FloatOps F] in
/-- The send and the receive semaphore are the kernel's own two; -/
theorem ownSems0_eq (c : Dev nD) : (Pipeline.ownSems0 (Ix := Ix) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Ix) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Ix) (Name := ℕ) (U := UU) (Lvl := ℕ) (Val := Elt F) (τ := τ) osem c ∗ unscopedSems0 c ∗ G m c)
      ⊢ |={Set.univ}=> iprop((bigSep Finset.univ fun k => iprop(∃ κ : ℕ, cellInv ER (exRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (exRd m) (kcell (c, k)) 0)
      ⊢ (|={Set.univ}=> bigSep Finset.univ fun k => iprop(∃ κ : ℕ, cellInv ER (exRd m) κ (kcell (c, k))) : sProp 𝕄) from by
        rw [← bigSep_sep']
        exact (bigSep_mono fun k _ => (Rounds.body_intro ER (exRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What every device may read: every cell's invariant at its name, and that every cell is at round 0. -/
def records (K : Dev nD × Fin 3 → ℕ) : sProp 𝕄 :=
  iprop((bigSep Finset.univ fun ck : Dev nD × Fin 3 => cellInv ER (exRd m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (exRd m) (K ck) (kcell ck) : sProp 𝕄)) ⊢ cellInv ER (exRd m) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device c: its positions, and the tokens of the duties it pays. -/
def payToks (c : Dev nD) : sProp 𝕄 :=
  iprop(dutyTok ER (barCell (peer c)) 0 () ∗ dutyTok ER (barCell (peer c)) 1 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtB0, HtB1, HtV, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtB0]; · iexact HtB0
  isplitl [HtB1]; · iexact HtB1
  isplitl [HtV]; · iexact HtV
  iexact HtS

omit [FloatOps F] in
/-- The tokens dealt across the pairs: a barrier cell's two tokens and a receive cell's token go to the partner, a send
    cell's token stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv pairing (fun c : Dev nD => (dutyTok ER (barCell c) 0 () : sProp 𝕄)),
    bigSep_univ_equiv pairing (fun c : Dev nD => (dutyTok ER (barCell c) 1 () : sProp 𝕄)),
    bigSep_univ_equiv pairing (fun c : Dev nD => (dutyTok ER (recvCell c) 0 () : sProp 𝕄))]
  iintro ⟨H1, H2, H3, H4⟩
  isplitl [H1]; · iexact H1
  isplitl [H2]; · iexact H2
  isplitl [H4]; · iexact H4
  iexact H3

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (exRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (exRd m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (exRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The step over all devices: the own and the unscoped semaphores of every device at once. -/
theorem glob : (bigSep Finset.univ fun c => iprop(Pipeline.ownSems0 (Ix := Ix) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- Of what the devices owe at launch, device c is dealt the credit for its barrier cell's entry unit (its partner's
    first signal) and for its landing (its partner's transfer); the credit for the parting unit nobody waits for. -/
theorem creds (c : Dev nD) :
    (Pipeline.launchCred O₀ c : sProp 𝕄) ⊢ iprop(cred (tallyAt (barCell c) i0 1) ∗ cred (tallyAt (recvCell c) i0 N)) := by
  have h0 : (O₀ : Dev nD → CellTallies nD τ sig Ix) = fun d => O₁ d + tallyAt (barCell (peer d)) i0 1 := rfl
  have h1 : (O₁ : Dev nD → CellTallies nD τ sig Ix) = fun d => O₂ d + tallyAt (recvCell (peer d)) i0 N := rfl
  rw [h0, Pipeline.launchCred_add, h1, Pipeline.launchCred_add]
  iintro ⟨⟨-, HR⟩, HB⟩
  isplitl [HB]
  · iapply (Pipeline.launchCred_tallyAt (.reg barS) peer peer peer_peer peer_peer i0 1 c); iexact HB
  · iapply (Pipeline.launchCred_tallyAt (.dma recvS.sem) peer peer peer_peer peer_peer i0 N c); iexact HR

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁ scratch
  iintro ⟨Hr, HzS, HzV⟩
  isplitr; · iempintro
  isplitl [HzS HzV]
  · isplitl [HzS] <;> iassumption
  iexact Hr

omit [FloatOps F] in
/-- Where a device's launch dues are positive: its partner's barrier cell at either index, its partner's receive cell. -/
theorem O₀_pos {c : Dev nD} {g : GSem nD τ sig} {i : Ix} (h : 0 < O₀ c g i) :
    (g = barCell (peer c) ∧ i = i1) ∨ (g = recvCell (peer c) ∧ i = i0) ∨ (g = barCell (peer c) ∧ i = i0) := by
  unfold O₀ O₁ O₂ at h
  rcases Pipeline.add_pos_cases h with h | h
  · rcases Pipeline.add_pos_cases h with h | h
    · exact .inl (Pipeline.tallyAt_pos h)
    · exact .inr (.inl (Pipeline.tallyAt_pos h))
  · exact .inr (.inr (Pipeline.tallyAt_pos h))

omit [FloatOps F] in
/-- A staging semaphore sits at level 0, below everything a device owes at launch (levels 1, 2 and 3). -/
theorem mayWait_stage (c : Dev nD) (q : DmaSem sig) (hq : SemLoc.dma q ≠ .dma recvS.sem) (O : CellTallies nD τ sig Ix) (hO : O = O₀ c ∨ O = 0) :
    (levAts L lv : sProp 𝕄) ⊢ MayWait (c : Thread nD τ) (.dma q) i0 O := by
  rcases hO with rfl | rfl
  · have h0 : lv ((c : Thread nD τ), .dma q) i0 = 0 := by dsimp only [lv]; rw [if_neg (fun h => by cases h), if_neg hq]
    refine Pipeline.mayWait_of_levAts (by rw [L_tc]; decide) fun g i hg => ?_
    rcases O₀_pos hg with ⟨rfl, rfl⟩ | ⟨rfl, rfl⟩ | ⟨rfl, rfl⟩
    · exact ⟨by rw [L_tc]; decide, by rw [h0, lv_bar1]; decide⟩
    · exact ⟨by rw [L_tc]; decide, by rw [h0, lv_recv]; decide⟩
    · exact ⟨by rw [L_tc]; decide, by rw [h0, lv_bar0]; decide⟩
  · rw [MayWait_zero]; iintro -; iempintro

theorem waits (c : Dev nD) : (levAts L lv : sProp 𝕄) ⊢ Pipeline.cellsWaits cfgs (dats m) i0 0 c :=
  Pipeline.cellsWaits_intro cfgs (dats m) i0 0 c fun w s t =>
    mayWait_stage c _ (by fin_cases w <;> fin_cases s <;> decide) _ (by
      rcases t with ⟨_ | _, ht⟩
      · exact Or.inl rfl
      · exact Or.inr rfl)

/-! ## The run -/

/-- Every device's arrays at what the proof data says they end at. -/
def QC : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 8000 in
/-- At the compiled mesh of eight devices, for any float values, from any memory with every counter at zero: given one
    device's run of the body, every weakly fair execution of the eight kernels — each pair shaking hands on the barrier
    semaphore, then exchanging halves — terminates, and every final state has each device's arrays at the computed
    contents. -/
theorem run_main_of (hbody : ∀ c : Dev nD, BodyObligation (dats (F := F) m 0 c) (defs₀ (F := F)) 𝒱₀ i0 Set.univ) :
    θ_run defs (onTc (τ := τ) (main (F := F))) ⟨m, fun _ => 0, ρ⟩ (QC m) :=
  Pipeline.θ_run_region_owing_glob_pf (fun p => (cfgs p).toPCfg) (fun p => (cfgs p).toPCfg_adm) (dats m) i0 cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-! ## The final arrays -/

/-- The input array is never written: it holds what it held. -/
theorem final_x (c : Dev nD) : (dats m 0 c).arrAt (0 : Fin 2) cfg0.N = m ((c : Thread nD τ).loc main_arg0) :=
  (dats (F := F) m 0 c).arrAt_in (0 : Fin 2) rfl _

/-- The result array is written once, whole, with what the body left in the output's staging buffer. -/
theorem final_out (c : Dev nD) : (dats m 0 c).arrAt (1 : Fin 2) cfg0.N = outAt m c := by
  show (dats m 0 c).arrAt (1 : Fin 2) ((t₀ : Fin cfg0.N).val + 1) = _
  rw [Dat.arrAt_succ, flush0_1 t₀, if_pos rfl]
  exact Memref.write_access_unit_zero_univ (Elt F) main_v1 (funext fun a => Nat.zero_mul _) _ _ _

/-- info: 'Cert.KernelIdeal.Exch.run_main_of' depends on axioms: [propext, Classical.choice, Quot.sound] -/
#guard_msgs in #print axioms run_main_of

end Cert.KernelIdeal.Exch

end
-- ==== Proof.KernelIdealBody.lean ====
/-
  One device's run of the exchange, from what the launch deals it to what it hands back.
-/
import proofs.«900589_g7700000000000590_dist_rs_v7x_xyz2x2x2_y_m256_n256_bf16_1_alg».proof.Proof.KernelIdealData
import Idealize.ShloMosaic.Lib.Pipeline.Value

noncomputable section

namespace Cert.KernelIdeal.Exch

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Ix (Elt F) ℕ UU ℕ

variable (m : (ℓ : Loc nD τ sig) → Buf (Elt F) ℓ) (ρ : Dev nD → PrngReg)

/-! ## The waits' level evidence -/

theorem mem_L (c : Dev nD) (sm : SemLoc sig) (i : Ix) (hi : i = i0 ∨ i = i1) : i ∈ L ((c : Thread nD τ), sm) := by
  rw [L_tc]; rcases hi with rfl | rfl <;> decide

/-- While it waits for its partner's entry unit a device owes the partner's landing and the parting unit. -/
theorem mayWait_bar (c : Dev nD) :
    (levAts L lv : sProp 𝕄) ⊢ MayWait (c : Thread nD τ) (.reg barS) i0 (tallyAt (barCell (peer c)) i1 1 + tallyAt (recvCell (peer c)) i0 N) :=
  Pipeline.mayWait_of_levAts (mem_L c _ _ (.inl rfl)) fun g i hg => by
    rcases Pipeline.add_pos_cases hg with h | h
    · rw [tallyAt_apply] at h
      by_cases h' : g = barCell (peer c) ∧ i = i1
      · rw [h'.1, h'.2]; exact ⟨mem_L _ _ _ (.inr rfl), by show lv (barCell c) i0 < _; rw [lv_bar0, lv_bar1]; decide⟩
      · rw [if_neg h'] at h; exact absurd h (Nat.lt_irrefl 0)
    · rw [tallyAt_apply] at h
      by_cases h' : g = recvCell (peer c) ∧ i = i0
      · rw [h'.1, h'.2]; exact ⟨mem_L _ _ _ (.inl rfl), by show lv (barCell c) i0 < _; rw [lv_bar0, lv_recv]; decide⟩
      · rw [if_neg h'] at h; exact absurd h (Nat.lt_irrefl 0)

/-- While it waits on its send or its receive cell a device owes the parting unit only. -/
theorem mayWait_xfer (c : Dev nD) (sm : SemLoc sig) (hsm : sm = .dma sendS.sem ∨ sm = .dma recvS.sem) :
    (levAts L lv : sProp 𝕄) ⊢ MayWait (c : Thread nD τ) sm i0 (tallyAt (barCell (peer c)) i1 1) :=
  Pipeline.mayWait_of_levAts (mem_L c _ _ (.inl rfl)) fun g i hg => by
    rw [tallyAt_apply] at hg
    by_cases h' : g = barCell (peer c) ∧ i = i1
    · rw [h'.1, h'.2]; refine ⟨mem_L _ _ _ (.inr rfl), ?_⟩
      rcases hsm with rfl | rfl
      · show lv (sendCell c) i0 < _; rw [lv_send, lv_bar1]; decide
      · show lv (recvCell c) i0 < _; rw [lv_recv, lv_bar1]; decide
    · rw [if_neg h'] at hg; exact absurd hg (Nat.lt_irrefl 0)

/-! ## The body -/

section Body

/-- A whole buffer held through its whole view. -/
theorem xPts_eq (c : Dev nD) (f : Buf (Elt F) (((c : Dev nD) : Thread nD τ).loc cc0_stg0_0)) :
    (((xM : Memref sig .tc .vmem S1x256x512 .f32).view.loc (c : Thread nD τ) ↦{fullShare} f) : sProp 𝕄)
      = (((c : Thread nD τ).loc cc0_stg0_0) ↦{fullShare} f) := rfl
theorem oPts_eq (c : Dev nD) (f : Buf (Elt F) (((c : Dev nD) : Thread nD τ).loc cc0_stg1_0)) :
    (((oM : Memref sig .tc .vmem S256x256 .bf16).view.loc (c : Thread nD τ) ↦{fullShare} f) : sProp 𝕄)
      = (((c : Thread nD τ).loc cc0_stg1_0) ↦{fullShare} f) := rfl
theorem sPts_eq (c : Dev nD) (f : Buf (Elt F) (((c : Dev nD) : Thread nD τ).loc cc0_scratch0)) :
    (((sM : Memref sig .tc .vmem S256x256 .bf16).view.loc (c : Thread nD τ) ↦{fullShare} f) : sProp 𝕄)
      = (((c : Thread nD τ).loc cc0_scratch0) ↦{fullShare} f) := rfl
theorem rPts_eq (c : Dev nD) (f : Buf (Elt F) (((c : Dev nD) : Thread nD τ).loc cc0_scratch1)) :
    (((rM : Memref sig .tc .vmem S256x256 .bf16).view.loc (c : Thread nD τ) ↦{fullShare} f) : sProp 𝕄)
      = (((c : Thread nD τ).loc cc0_scratch1) ↦{fullShare} f) := rfl
theorem lPts_eq (c : Dev nD) (f : Buf (Elt F) (((c : Dev nD) : Thread nD τ).loc cc0_scratch2)) :
    (((lM : Memref sig .tc .vmem S256x256 .f32).view.loc (c : Thread nD τ) ↦{fullShare} f) : sProp 𝕄)
      = (((c : Thread nD τ).loc cc0_scratch2) ↦{fullShare} f) := rfl

theorem hz2 : (![0, 0] : Fin 2 → Nat) = fun _ => 0 := funext fun a => by fin_cases a <;> rfl

/-- What the stores of a device with y = 0 leave: the right half, narrowed, in the sending buffer; the left half in the
    keeping buffer; the kept half plus the landed half in the staged result. -/
theorem send_store_y0 (c : Dev nD) (hy : y0 c) (f0 : Buf (Elt F) (((c : Dev nD) : Thread nD τ).loc cc0_scratch0)) :
    (sM : Memref sig .tc .vmem S256x256 .bf16).view.writes (Elt F) f0
        [⟨r0, k0_pay4 (View.readAt (Elt F) (xM : Memref sig .tc .vmem S1x256x512 .f32).view rHi.toLoadRect (xstg m c))⟩] = sendVal m c := by
  unfold sendVal hiOf; rw [if_pos hy]
  show ((sM : Memref sig .tc .vmem S256x256 .bf16).access r0 : View sig .tc _ _ _).write (Elt F) f0 _ Finset.univ = _
  exact Memref.write_access_unit_zero_univ (Elt F) cc0_scratch0 hz2 _ f0 _
theorem kept_store_y0 (c : Dev nD) (hy : y0 c) (f2 : Buf (Elt F) (((c : Dev nD) : Thread nD τ).loc cc0_scratch2)) :
    (lM : Memref sig .tc .vmem S256x256 .f32).view.writes (Elt F) f2
        [⟨r0, k0_pay1 (View.readAt (Elt F) (xM : Memref sig .tc .vmem S1x256x512 .f32).view rLo.toLoadRect (xstg m c))⟩] = keptVal m c := by
  unfold keptVal loOf; rw [if_pos hy]
  show ((lM : Memref sig .tc .vmem S256x256 .f32).access r0 : View sig .tc _ _ _).write (Elt F) f2 _ Finset.univ = _
  exact Memref.write_access_unit_zero_univ (Elt F) cc0_scratch2 hz2 _ f2 _
theorem kept_y0 (c : Dev nD) (hy : y0 c) :
    k0_pay1 (View.readAt (Elt F) (xM : Memref sig .tc .vmem S1x256x512 .f32).view rLo.toLoadRect (xstg m c)) = keptVal m c := by
  unfold keptVal loOf; rw [if_pos hy]
/-- What the stores of a device with y = 1 leave: the left half, narrowed, in the sending buffer; the right half in the
    keeping buffer. -/
theorem send_store_y1 (c : Dev nD) (hy : ¬ y0 c) (f0 : Buf (Elt F) (((c : Dev nD) : Thread nD τ).loc cc0_scratch0)) :
    (sM : Memref sig .tc .vmem S256x256 .bf16).view.writes (Elt F) f0
        [⟨r0, k0_pay5 (View.readAt (Elt F) (xM : Memref sig .tc .vmem S1x256x512 .f32).view rLo.toLoadRect (xstg m c))⟩] = sendVal m c := by
  unfold sendVal loOf; rw [if_neg hy]
  show ((sM : Memref sig .tc .vmem S256x256 .bf16).access r0 : View sig .tc _ _ _).write (Elt F) f0 _ Finset.univ = _
  exact Memref.write_access_unit_zero_univ (Elt F) cc0_scratch0 hz2 _ f0 _
theorem kept_store_y1 (c : Dev nD) (hy : ¬ y0 c) (f2 : Buf (Elt F) (((c : Dev nD) : Thread nD τ).loc cc0_scratch2)) :
    (lM : Memref sig .tc .vmem S256x256 .f32).view.writes (Elt F) f2
        [⟨r0, k0_pay2 (View.readAt (Elt F) (xM : Memref sig .tc .vmem S1x256x512 .f32).view rHi.toLoadRect (xstg m c))⟩] = keptVal m c := by
  unfold keptVal hiOf; rw [if_neg hy]
  show ((lM : Memref sig .tc .vmem S256x256 .f32).access r0 : View sig .tc _ _ _).write (Elt F) f2 _ Finset.univ = _
  exact Memref.write_access_unit_zero_univ (Elt F) cc0_scratch2 hz2 _ f2 _
theorem kept_y1 (c : Dev nD) (hy : ¬ y0 c) :
    k0_pay2 (View.readAt (Elt F) (xM : Memref sig .tc .vmem S1x256x512 .f32).view rHi.toLoadRect (xstg m c)) = keptVal m c := by
  unfold keptVal hiOf; rw [if_neg hy]
/-- The staged result after the last store: the kept half, read back whole through the one store that wrote it, plus the
    landed half. -/
theorem out_store (c : Dev nD) (g1 : Buf (Elt F) (((c : Dev nD) : Thread nD τ).loc cc0_stg1_0)) (P : FVec F S256x256 .f32) (hP : P = keptVal m c) :
    (oM : Memref sig .tc .vmem S256x256 .bf16).view.writes (Elt F) g1
        [⟨r0, k0_pay3 ((lM : Memref sig .tc .vmem S256x256 .f32).view.readCov [⟨r0, P⟩] r0.toLoadRect)
            (View.readAt (Elt F) (rM : Memref sig .tc .vmem S256x256 .bf16).view r0.toLoadRect (landed m c))⟩] = outAt m c := by
  subst hP
  unfold outAt
  rw [View.readCov_unit_zero (S := S256x256) (lM : Memref sig .tc .vmem S256x256 .f32).view hz2 _ _,
      show View.readAt (Elt F) (rM : Memref sig .tc .vmem S256x256 .bf16).view r0.toLoadRect (landed m c) = landed m c from
        Memref.readAt_unit_zero (Elt F) cc0_scratch1 hz2 _ _]
  show ((oM : Memref sig .tc .vmem S256x256 .bf16).access r0 : View sig .tc _ _ _).write (Elt F) g1 _ Finset.univ = _
  exact Memref.write_access_unit_zero_univ (Elt F) cc0_stg1_0 hz2 _ g1 _

variable (K : Dev nD × Fin 3 → ℕ)

theorem sSet_eq (c : Dev nD) (f : Buf (Elt F) (((c : Dev nD) : Thread nD τ).loc cc0_scratch0)) :
    (((sM : Memref sig .tc .vmem S256x256 .bf16).view.loc (c : Thread nD τ) ↦[(sM : Memref sig .tc .vmem S256x256 .bf16).view.set]{fullShare} f) : sProp 𝕄)
      = ((sM : Memref sig .tc .vmem S256x256 .bf16).view.loc (c : Thread nD τ) ↦{fullShare} f) := by rw [View.set_whole]
theorem rSet_eq (c : Dev nD) (f : Buf (Elt F) (((c : Dev nD) : Thread nD τ).loc cc0_scratch1)) :
    (((rM : Memref sig .tc .vmem S256x256 .bf16).view.loc (c : Thread nD τ) ↦[(rM : Memref sig .tc .vmem S256x256 .bf16).view.set]{fullShare} f) : sProp 𝕄)
      = ((rM : Memref sig .tc .vmem S256x256 .bf16).view.loc (c : Thread nD τ) ↦{fullShare} f) := by rw [View.set_whole]

/-- A whole buffer copied over a whole buffer leaves the source's contents. -/
theorem copied_eq (c : Dev nD) (fd : Buf (Elt F) ((rM : Memref sig .tc .vmem S256x256 .bf16).view.loc (c : Thread nD τ))) (fs : (cc0_scratch0 : Ref sig .tc).ty.Contents (Elt F)) :
    (rM : Memref sig .tc .vmem S256x256 .bf16).view.write (Elt F) fd ((sM : Memref sig .tc .vmem S256x256 .bf16).view.read (Elt F) fs) Finset.univ = fs := by
  show (View.whole cc0_scratch1).write (Elt F) fd ((View.whole cc0_scratch0).read (Elt F) fs) Finset.univ = fs
  rw [View.read_whole]
  exact View.write_whole_univ _ _ _

/-- The transfer of the sending buffer into the partner's landing buffer, addressed to `n = peer c`: it pays the send
    cell's duty with the sending buffer and the partner's receive cell's duty with the landing buffer rewritten and the
    fact that this device has consumed round 0 of its barrier cell. -/
theorem wp_send_ex (c n : Dev nD) (hn : n = peer c) {hsc : (rM : Memref sig (Dev.tc n : Thread nD τ).2.kind .vmem S256x256 .bf16).view.ref.isScScratch = false}
    {hsrc : (sM : Memref sig .tc .vmem S256x256 .bf16).view.WordExact} {hdst : (rM : Memref sig .tc .vmem S256x256 .bf16).view.WordExact}
    {hsem : DmaTarget.Typed .vmem (.dma recvS.sem) (.remote (Dev.tc n : Thread nD τ) (rM : Memref sig .tc .vmem S256x256 .bf16) (.dma sendS.sem) hsc)}
    {α : Type} {Q : α → sProp 𝕄} {k : PUnit → Prog (TpuEff nD τ sig (Elt F) Λ₀ .tc) α}
    (fn : Buf (Elt F) ((rM : Memref sig .tc .vmem S256x256 .bf16).view.loc (peer c : Thread nD τ))) (O : CellTallies nD τ sig Ix) (W : Waits sig Ix) :
    iprop(cellInv ER (exRd m) (K (c, 1)) (sendCell c) ∗ cellInv ER (exRd m) (K (peer c, 2)) (recvCell (peer c))
        ∗ ((sM : Memref sig .tc .vmem S256x256 .bf16).view.loc (c : Thread nD τ) ↦[(sM : Memref sig .tc .vmem S256x256 .bf16).view.set]{fullShare} sendVal m c)
        ∗ (((rM : Memref sig .tc .vmem S256x256 .bf16).view.loc (peer c : Thread nD τ) ↦[(rM : Memref sig .tc .vmem S256x256 .bf16).view.set]{fullShare} fn) ∗ reached ER (barCell c) 1)
        ∗ owes (c : Thread nD τ) (O + tallyAt (recvCell (peer c)) i0 N) W
        ∗ dutyTok ER (sendCell c) 0 () ∗ reached ER (sendCell c) 0
        ∗ dutyTok ER (recvCell (peer c)) 0 () ∗ reached ER (recvCell (peer c)) 0)
      ⊢ iprop(((cred (tallyAt (sendCell c) i0 N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM (.remote (Dev.tc n : Thread nD τ) rM (.dma sendS.sem) hsc) (.dma recvS.sem) hsrc hdst hsem) k) Q) := by
  subst hn
  exact Rounds.wp_send_pointsTo_with 𝒱₀ ER (exRd m) (c : Thread nD τ) none (κ₁ := K (c, 1)) (κ₂ := K (peer c, 2))
    (r₁ := 0) (r₂ := 0) (d₁ := ()) (d₂ := ()) (fd := fn) (F := reached ER (barCell c) 1)
    (by rw [duties_send]; exact Finset.mem_singleton_self _) (by rw [duties_recv]; exact Finset.mem_singleton_self _)
    i0 i0 N rfl (amount_send m c ()) (amount_recv m (peer c) ()) O rfl (W := W)
    (by rw [payload_send, sSet_eq])
    (by rw [payload_recv_peer, copied_eq, rSet_eq])

attribute [local irreducible] peer
attribute [local sl_canon] dev1_eq dev2_eq dev3_eq

attribute [local sl_rounds] duties_bar0 duties_bar1 duties_send duties_recv amount_bar amount_send amount_recv
  expect_bar0 expect_send expect_recv payload_bar0 payload_bar1 payload_send payload_recv
attribute [local sl_rounds high] payload_bar0_peer payload_recv_peer

/-- The printed conditions on the y coordinate, decided over the mesh. -/
abbrev isY0 (c : Dev nD) : BitVec 1 :=
  Scalar.cmpi .ne (Scalar.extui (Scalar.cmpi .eq (Scalar.remsi (Scalar.divsi (Dev.word c) 2#32) 2#32) 0#32) : BitVec 32) 0#32
abbrev isY1 (c : Dev nD) : BitVec 1 :=
  Scalar.cmpi .ne (Scalar.extui (Scalar.cmpi .eq (Scalar.remsi (Scalar.divsi (Dev.word c) 2#32) 2#32) 1#32) : BitVec 32) 0#32
theorem isY0_of_y0 (c : Dev nD) (h : y0 c) : (isY0 c = 1#1) = True := eq_true ((by decide : ∀ c : Dev nD, y0 c → isY0 c = 1#1) c h)
theorem isY1_of_y0 (c : Dev nD) (h : y0 c) : (isY1 c = 1#1) = False := eq_false ((by decide : ∀ c : Dev nD, y0 c → ¬ isY1 c = 1#1) c h)
theorem isY0_of_y1 (c : Dev nD) (h : ¬ y0 c) : (isY0 c = 1#1) = False := eq_false ((by decide : ∀ c : Dev nD, ¬ y0 c → ¬ isY0 c = 1#1) c h)
theorem isY1_of_y1 (c : Dev nD) (h : ¬ y0 c) : (isY1 c = 1#1) = True := eq_true ((by decide : ∀ c : Dev nD, ¬ y0 c → isY1 c = 1#1) c h)

set_option maxHeartbeats 1600000 in
/-- The body at a device with y = 0, run from `bodyPre` to `bodyPost`. -/
theorem sound_body_y0 (c : Dev nD) (hy : y0 c) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4) Kt := by
  simp only [cc0_body_eq_skeleton]; unfold cc0_body_skel
  simp only [k0_part1_eq_skeleton]; unfold k0_part1_skel
  simp only [isY0_of_y0 c hy, isY1_of_y0 c hy, ↓reduceDIte, semSignalWord, semWaitWord, Prog.lift, Prog.bind_op, Prog.bind_ret, Prog.pure_eq_ret, wp_deviceId,
    dev1_eq c, dev2_eq c, dev3_eq c]
  unfold bodyPre ghost invs scratch
  iintro ⟨⟨⟨⟨⟨#HIbar, #HIsnd, #HIrcv, #HIbarP, #HIrcvP⟩, HatB, HatS, HatV, #HrBP, #HrVP, #HrS, #HrV, HtBP0, HtBP1, HtVP, HtS⟩, HcB, HcV, #Hlev, ⟨%f0, Hs⟩, ⟨%f1, Hr⟩, ⟨%f2, Hl⟩⟩,
    Ho, ⟨%d0, %g0, %hg0, Hx⟩, ⟨%d1, %g1, %hg1, Hout⟩⟩, Hk⟩
  have hx : g0 = xstg m c := by rw [hg0]; unfold Dat.before; rw [if_pos (fetch0_0 t₀)]; rfl
  subst hx
  unfold Dat.owesAt Pipeline.owesWithin
  icases Ho with ⟨%W, %hW, HO⟩
  rw [show (dats m 0 c).owed t₀.castSucc = O₀ c from rfl]
  unfold O₀ O₁ O₂
  have hmwB := mayWait_bar (F := F) c
  have hmwS := mayWait_xfer (F := F) c _ (.inl rfl)
  have hmwR := mayWait_xfer (F := F) c _ (.inr rfl)
  ihave Hx := (Entails.of_eq (xPts_eq c _).symm) $$ Hx
  ihave Hout := (Entails.of_eq (oPts_eq c _).symm) $$ Hout
  ihave Hs := (Entails.of_eq (sPts_eq c _).symm) $$ Hs
  ihave Hr := (Entails.of_eq (rPts_eq c _).symm) $$ Hr
  ihave Hl := (Entails.of_eq (lPts_eq c _).symm) $$ Hl
  sl_exec (disch := simp only [dev2_eq])
  rw [send_store_y0 m c hy f0]
  ihave Hs := (Entails.of_eq (sSet_eq c _).symm) $$ Hs
  ihave HatB_pay1 := (Entails.of_eq (rSet_eq (peer c) _).symm) $$ HatB_pay1
  iapply (wp_send_ex m K c _ (dev2_eq c) HatB_pay1_v (tallyAt (barCell (peer c)) i1 1) _) $$ [Hs HatB_pay1 HatB_reached HO HtS HtVP]
  · isplitr; · iexact HIsnd
    isplitr; · iexact HIrcvP
    isplitl [Hs]; · iexact Hs
    isplitl [HatB_pay1 HatB_reached]
    · isplitl [HatB_pay1]; · iexact HatB_pay1
      iexact HatB_reached
    isplitl [HO]; · iexact HO
    isplitl [HtS]; · iexact HtS
    isplitr; · iexact HrS
    isplitl [HtVP]; · iexact HtVP
    iexact HrVP
  iintro ⟨HcS, HO⟩
  sl_exec
  sl_unfold_words
  rw [kept_store_y0 m c hy f2, out_store m c g1 _ (kept_y0 m c hy)]
  -- the two own cells close: their counters at zero are the device's again
  imod (Rounds.cell_close ER (exRd m) (Set.mem_univ (K (c, 1))) (fun h => h) (R := 1) (duties_later_send m c)) $$ [HatS] with HzS
  · isplitr; · iexact HIsnd
    iexact HatS
  imod (Rounds.cell_close ER (exRd m) (Set.mem_univ (K (c, 2))) (fun h => h) (R := 1) (duties_later_recv m c)) $$ [HatV] with HzV
  · isplitr; · iexact HIrcv
    iexact HatV
  rw [wp_ret]; imodintro
  iapply Hk
  unfold bodyPost Φ₁ scratch Dat.owesAt Pipeline.owesWithin
  rw [show (dats m 0 c).owed t₀.succ = 0 from rfl]
  isplitl [HatS_pay1 HatV_pay1 Hl HzS HzV]
  · isplitl [HatS_pay1 HatV_pay1 Hl]
    · isplitl [HatS_pay1]; · iexists _; iexact HatS_pay1
      isplitl [HatV_pay1]; · iexists _; iexact HatV_pay1
      iexists _; iexact Hl
    isplitl [HzS]; · iexact HzS
    iexact HzV
  isplitl [HO]
  · iexists (insert (SemLoc.dma recvS.sem, i0) (insert (SemLoc.dma sendS.sem, i0) (insert (SemLoc.reg barS, i0) W)))
    isplitr; · ipureintro; exact fun _ _ => Or.inl trivial
    iexact HO
  isplitl [Hx]
  · iexists _; isplitr; · (ipureintro; rfl)
    iexact Hx
  iexists _; isplitr; · (ipureintro; rfl)
  iexact Hout

set_option maxHeartbeats 1600000 in
/-- The body at a device with y = 1, run from `bodyPre` to `bodyPost`. -/
theorem sound_body_y1 (c : Dev nD) (hy : ¬ y0 c) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4) Kt := by
  simp only [cc0_body_eq_skeleton]; unfold cc0_body_skel
  simp only [k0_part1_eq_skeleton]; unfold k0_part1_skel
  simp only [isY0_of_y1 c hy, isY1_of_y1 c hy, ↓reduceDIte, semSignalWord, semWaitWord, Prog.lift, Prog.bind_op, Prog.bind_ret, Prog.pure_eq_ret, wp_deviceId,
    dev1_eq c, dev2_eq c, dev3_eq c]
  unfold bodyPre ghost invs scratch
  iintro ⟨⟨⟨⟨⟨#HIbar, #HIsnd, #HIrcv, #HIbarP, #HIrcvP⟩, HatB, HatS, HatV, #HrBP, #HrVP, #HrS, #HrV, HtBP0, HtBP1, HtVP, HtS⟩, HcB, HcV, #Hlev, ⟨%f0, Hs⟩, ⟨%f1, Hr⟩, ⟨%f2, Hl⟩⟩,
    Ho, ⟨%d0, %g0, %hg0, Hx⟩, ⟨%d1, %g1, %hg1, Hout⟩⟩, Hk⟩
  have hx : g0 = xstg m c := by rw [hg0]; unfold Dat.before; rw [if_pos (fetch0_0 t₀)]; rfl
  subst hx
  unfold Dat.owesAt Pipeline.owesWithin
  icases Ho with ⟨%W, %hW, HO⟩
  rw [show (dats m 0 c).owed t₀.castSucc = O₀ c from rfl]
  unfold O₀ O₁ O₂
  have hmwB := mayWait_bar (F := F) c
  have hmwS := mayWait_xfer (F := F) c _ (.inl rfl)
  have hmwR := mayWait_xfer (F := F) c _ (.inr rfl)
  ihave Hx := (Entails.of_eq (xPts_eq c _).symm) $$ Hx
  ihave Hout := (Entails.of_eq (oPts_eq c _).symm) $$ Hout
  ihave Hs := (Entails.of_eq (sPts_eq c _).symm) $$ Hs
  ihave Hr := (Entails.of_eq (rPts_eq c _).symm) $$ Hr
  ihave Hl := (Entails.of_eq (lPts_eq c _).symm) $$ Hl
  sl_exec (disch := simp only [dev2_eq])
  rw [send_store_y1 m c hy f0]
  ihave Hs := (Entails.of_eq (sSet_eq c _).symm) $$ Hs
  ihave HatB_pay1 := (Entails.of_eq (rSet_eq (peer c) _).symm) $$ HatB_pay1
  iapply (wp_send_ex m K c _ (dev2_eq c) HatB_pay1_v (tallyAt (barCell (peer c)) i1 1) _) $$ [Hs HatB_pay1 HatB_reached HO HtS HtVP]
  · isplitr; · iexact HIsnd
    isplitr; · iexact HIrcvP
    isplitl [Hs]; · iexact Hs
    isplitl [HatB_pay1 HatB_reached]
    · isplitl [HatB_pay1]; · iexact HatB_pay1
      iexact HatB_reached
    isplitl [HO]; · iexact HO
    isplitl [HtS]; · iexact HtS
    isplitr; · iexact HrS
    isplitl [HtVP]; · iexact HtVP
    iexact HrVP
  iintro ⟨HcS, HO⟩
  sl_exec
  sl_unfold_words
  rw [kept_store_y1 m c hy f2, out_store m c g1 _ (kept_y1 m c hy)]
  -- the two own cells close: their counters at zero are the device's again
  imod (Rounds.cell_close ER (exRd m) (Set.mem_univ (K (c, 1))) (fun h => h) (R := 1) (duties_later_send m c)) $$ [HatS] with HzS
  · isplitr; · iexact HIsnd
    iexact HatS
  imod (Rounds.cell_close ER (exRd m) (Set.mem_univ (K (c, 2))) (fun h => h) (R := 1) (duties_later_recv m c)) $$ [HatV] with HzV
  · isplitr; · iexact HIrcv
    iexact HatV
  rw [wp_ret]; imodintro
  iapply Hk
  unfold bodyPost Φ₁ scratch Dat.owesAt Pipeline.owesWithin
  rw [show (dats m 0 c).owed t₀.succ = 0 from rfl]
  isplitl [HatS_pay1 HatV_pay1 Hl HzS HzV]
  · isplitl [HatS_pay1 HatV_pay1 Hl]
    · isplitl [HatS_pay1]; · iexists _; iexact HatS_pay1
      isplitl [HatV_pay1]; · iexists _; iexact HatV_pay1
      iexists _; iexact Hl
    isplitl [HzS]; · iexact HzS
    iexact HzV
  isplitl [HO]
  · iexists (insert (SemLoc.dma recvS.sem, i0) (insert (SemLoc.dma sendS.sem, i0) (insert (SemLoc.reg barS, i0) W)))
    isplitr; · ipureintro; exact fun _ _ => Or.inl trivial
    iexact HO
  isplitl [Hx]
  · iexists _; isplitr; · (ipureintro; rfl)
    iexact Hx
  iexists _; isplitr; · (ipureintro; rfl)
  iexact Hout

end Body

/-! ## The body obligation -/

theorem owns_whole_eq (c : Dev nD) (b : Ref sig .tc) (X : b.ty.Contents (Elt F)) :
    (owns (Ix := Ix) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
def bodyPre' (c : Dev nD) : sProp 𝕄 :=
  iprop(Φ₀ m c ∗ (dats m 0 c).owesAt i0 t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The pipeline's body obligation on device `c`: the run of the body at its y coordinate. -/
theorem body_obligation (c : Dev nD) : BodyObligation (dats (F := F) m 0 c) (defs₀ (F := F)) 𝒱₀ i0 Set.univ := fun t => by
  rw [fin_N t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4) (fun _ => bodyPost m c)
  unfold bodyPre' Φ₀ start
  iintro ⟨⟨⟨⟨%K, Hg⟩, Hrest⟩, Hscr⟩, Ho, Hx, Hout⟩
  by_cases hy : y0 c
  · iapply (sound_body_y0 m K c hy fun _ => bodyPost m c)
    unfold bodyPre
    isplitr []
    · isplitl [Hg Hrest Hscr]
      · isplitl [Hg]; · iexact Hg
        icases Hrest with ⟨H1, H2, H3⟩
        isplitl [H1]; · iexact H1
        isplitl [H2]; · iexact H2
        isplitl [H3]; · iexact H3
        iexact Hscr
      isplitl [Ho]; · iexact Ho
      isplitl [Hx] <;> iassumption
    · iintro H; iexact H
  · iapply (sound_body_y1 m K c hy fun _ => bodyPost m c)
    unfold bodyPre
    isplitr []
    · isplitl [Hg Hrest Hscr]
      · isplitl [Hg]; · iexact Hg
        icases Hrest with ⟨H1, H2, H3⟩
        isplitl [H1]; · iexact H1
        isplitl [H2]; · iexact H2
        isplitl [H3]; · iexact H3
        iexact Hscr
      isplitl [Ho]; · iexact Ho
      isplitl [Hx] <;> iassumption
    · iintro H; iexact H

/-- info: 'Cert.KernelIdeal.Exch.body_obligation' depends on axioms: [propext, Classical.choice, Quot.sound] -/
#guard_msgs in #print axioms body_obligation

end Cert.KernelIdeal.Exch

end
-- ==== Proof.KernelIdealRun.lean ====
/-
  The run of the whole mesh: the launch over the body obligation. Every weakly fair execution of the eight devices'
  kernels terminates without fault, and in every final state each device's argument array is as launched and its
  result array holds the kept half plus the landed half.
-/
import proofs.«900589_g7700000000000590_dist_rs_v7x_xyz2x2x2_y_m256_n256_bf16_1_alg».proof.Proof.KernelIdealLaunch
import proofs.«900589_g7700000000000590_dist_rs_v7x_xyz2x2x2_y_m256_n256_bf16_1_alg».proof.Proof.KernelIdealBody

noncomputable section

namespace Cert.KernelIdeal.Exch

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Ix (Elt F) ℕ UU ℕ

variable (m : (ℓ : Loc nD τ sig) → Buf (Elt F) ℓ) (ρ : Dev nD → PrngReg)

theorem run_main : θ_run defs (onTc (τ := τ) (main (F := F))) ⟨m, fun _ => 0, ρ⟩ (QC m) :=
  run_main_of m ρ (body_obligation m)

/-- info: 'Cert.KernelIdeal.Exch.run_main' depends on axioms: [propext, Classical.choice, Quot.sound] -/
#guard_msgs in #print axioms run_main

end Cert.KernelIdeal.Exch

end
-- ==== Proof.Bridge.lean ====
/-
  The value of the exchange at the ideal instance: on every device the kernel's result is its column block of the
  reference's result.

  Device c sits at (c / 4, c / 2 % 2, c % 2) of the 2 x 2 x 2 mesh; write y = c / 2 % 2. Its argument buffer is block y
  of the whole input X : [2, 256, 512] along dimension 0. The half it keeps, read at (p, q), is X at (y, p, 256 y + q);
  the half its partner (the device with the other y) sends it is X at (1 - y, p, 256 y + q); a float is an extended real,
  a change of format the identity and the float sum +, so the result at (p, q) is the sum of those two. The reference sums
  X over dimension 0 from the constant 0, so its result at (p, 256 y + q) is 0 + (X at (0, p, 256 y + q) + X at
  (1, p, 256 y + q)), and column block y of it, read at (p, q), is that element. The two agree by 0 + a = a and, at y = 1,
  commutativity of + on the extended reals; no finiteness is needed.
-/
import proofs.«900589_g7700000000000590_dist_rs_v7x_xyz2x2x2_y_m256_n256_bf16_1_alg».proof.Defs
import proofs.«900589_g7700000000000590_dist_rs_v7x_xyz2x2x2_y_m256_n256_bf16_1_alg».proof.Proof.KernelIdealProto
import proofs.«900589_g7700000000000590_dist_rs_v7x_xyz2x2x2_y_m256_n256_bf16_1_alg».proof.Proof.Gen.ReferenceIdeal.Run
import proofs.«900589_g7700000000000590_dist_rs_v7x_xyz2x2x2_y_m256_n256_bf16_1_alg».proof.Proof.Gen.ReferenceIdeal.Read
import Idealize.ShloMosaic.Lib.Layout
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Cert.KernelIdeal Cert.KernelIdeal.Gen Cert.KernelIdeal.Exch
open Idealize.ShloMosaic Idealize.ShloMosaic.TcCoe Idealize.ShloMosaic.ValueIdx
open Idealize.SL.Sem

/-! ## Reading the staged block and its two column halves at an index -/

section AnyF
variable {F : FTy → Type} [FloatOps F]

/-- The staged block is the device's argument buffer: the window covers the whole array. -/
theorem xstg_eq (m : (ℓ : Loc nD τ sig) → Buf (Elt F) ℓ) (c : Dev nD) :
    xstg m c = m ((c : Thread nD τ).loc main_arg0) := by
  unfold xstg
  funext i
  rw [View.read_apply]
  show m ((c : Thread nD τ).loc main_arg0) _ = _
  congr 1
  funext a
  refine Fin.ext ?_
  show 0 * _ + 1 * (i a).val = (i a).val
  omega

/-- The right column half at (0, i, j) is the block at (0, i, 256 + j). -/
theorem hiOf_apply (x : (cc0_stg0_0 : Ref sig .tc).ty.Contents (Elt F)) (i : Fin 256) (j : Fin 256) :
    hiOf x (ix3 (0 : Fin 1) i j) = x (ix3 (0 : Fin 1) i ⟨256 + j.val, by omega⟩) := by
  unfold hiOf
  show x _ = x _
  congr 1
  funext a
  refine Fin.ext ?_
  match a with
  | ⟨0, _⟩ => rfl
  | ⟨1, _⟩ => show 0 + 1 * i.val = i.val; omega
  | ⟨2, _⟩ => show 256 + 1 * j.val = 256 + j.val; omega

/-- The left column half at (0, i, j) is the block at (0, i, j). -/
theorem loOf_apply (x : (cc0_stg0_0 : Ref sig .tc).ty.Contents (Elt F)) (i : Fin 256) (j : Fin 256) :
    loOf x (ix3 (0 : Fin 1) i j) = x (ix3 (0 : Fin 1) i ⟨j.val, by omega⟩) := by
  unfold loOf
  show x _ = x _
  congr 1
  funext a
  refine Fin.ext ?_
  match a with
  | ⟨0, _⟩ => rfl
  | ⟨1, _⟩ => show 0 + 1 * i.val = i.val; omega
  | ⟨2, _⟩ => show 0 + 1 * j.val = j.val; omega

end AnyF

/-! ## The payloads at the ideal instance, at an index: format changes are the identity, the sum is +. -/

theorem pay1_apply (v : Vec Ideal S1x256x256 .f32) (i j : Fin 256) :
    k0_pay1 (F := Ideal) v (ix2 i j) = v (ix3 (0 : Fin 1) i j) := by
  show shapeCast S256x256 (shapeCast S256x256 v shapeCasts_S1x256x256_S256x256) shapeCasts_S256x256_S256x256 (ix2 i j) = _
  rw [shapeCast_self]
  exact shapeCast_1ab_ab_apply v _ i j

theorem pay2_apply (v : Vec Ideal S1x256x256 .f32) (i j : Fin 256) :
    k0_pay2 (F := Ideal) v (ix2 i j) = v (ix3 (0 : Fin 1) i j) := by
  show shapeCast S256x256 (shapeCast S256x256 v shapeCasts_S1x256x256_S256x256) shapeCasts_S256x256_S256x256 (ix2 i j) = _
  rw [shapeCast_self]
  exact shapeCast_1ab_ab_apply v _ i j

theorem pay4_apply (v : Vec Ideal S1x256x256 .f32) (i j : Fin 256) :
    k0_pay4 (F := Ideal) v (ix2 i j) = v (ix3 (0 : Fin 1) i j) := by
  show shapeCast S256x256 (truncf .bf16 (shapeCast S256x256 v shapeCasts_S1x256x256_S256x256) bitsLt_bf16_f32 : FVec Ideal S256x256 .bf16) shapeCasts_S256x256_S256x256 (ix2 i j) = _
  rw [shapeCast_self]
  exact shapeCast_1ab_ab_apply v _ i j

theorem pay5_apply (v : Vec Ideal S1x256x256 .f32) (i j : Fin 256) :
    k0_pay5 (F := Ideal) v (ix2 i j) = v (ix3 (0 : Fin 1) i j) := by
  show shapeCast S256x256 (truncf .bf16 (shapeCast S256x256 v shapeCasts_S1x256x256_S256x256) bitsLt_bf16_f32 : FVec Ideal S256x256 .bf16) shapeCasts_S256x256_S256x256 (ix2 i j) = _
  rw [shapeCast_self]
  exact shapeCast_1ab_ab_apply v _ i j

theorem pay3_apply (a : Vec Ideal S256x256 .f32) (b : Vec Ideal S256x256 .bf16) (i : S256x256.Idx) :
    k0_pay3 (F := Ideal) a b i = (show EReal from a i) + (show EReal from b i) := rfl

/-! ## The mesh: a device's block coordinates, and its partner's y -/

theorem argBlock_val (c : Dev nD) :
    ((Layout.meshBlock [2, 2, 2] ![[1], [], []] c) (0 : Fin 3)).val = c.val / 2 % 2
    ∧ ((Layout.meshBlock [2, 2, 2] ![[1], [], []] c) (1 : Fin 3)).val = 0
    ∧ ((Layout.meshBlock [2, 2, 2] ![[1], [], []] c) (2 : Fin 3)).val = 0 := by revert c; decide

theorem resBlock_val (c : Dev nD) :
    ((Layout.meshBlock [2, 2, 2] ![[], [1]] c) (0 : Fin 2)).val = 0
    ∧ ((Layout.meshBlock [2, 2, 2] ![[], [1]] c) (1 : Fin 2)).val = c.val / 2 % 2 := by revert c; decide

theorem peer_y (c : Dev nD) : (peer c).val / 2 % 2 = 1 - c.val / 2 % 2 := by revert c; decide

/-! ## The whole input at explicit coordinates -/

/-- The whole input array's contents: the reference's argument. -/
abbrev XTy : Type := Buf (Elt Ideal) (((0 : Dev Cert.ReferenceIdeal.nD).tc : Thread Cert.ReferenceIdeal.nD Cert.ReferenceIdeal.τ).loc Cert.ReferenceIdeal.main_arg0)

/-- The whole input at coordinates (k, p, q), as an extended real. -/
abbrev Xr (X : XTy) (k : Fin 2) (p : Fin 256) (q : Fin 512) : EReal := X (ix3 k p q)

/-- An index of the whole input with coordinates (k, p, q) is `ix3` of them. -/
theorem X_at (X : XTy) (i : (⟨3, ![2, 256, 512]⟩ : Shape).Idx)
    (k p q : ℕ) (hk : k < 2) (hp : p < 256) (hq : q < 512)
    (h0 : (i 0).val = k) (h1 : (i 1).val = p) (h2 : (i 2).val = q) :
    X i = Xr X ⟨k, hk⟩ ⟨p, hp⟩ ⟨q, hq⟩ :=
  congrArg X (funext fun a => Fin.ext (match a with | ⟨0, _⟩ => h0 | ⟨1, _⟩ => h1 | ⟨2, _⟩ => h2))

section Agree

variable (m : (ℓ : Loc nD τ sig) → Buf (Elt Ideal) ℓ) (X : XTy)
  (hagree : ∀ c : Dev nD, m ((c.tc : Thread nD τ).loc main_arg0)
      = Layout.blockN ⟨3, ![1, 256, 512]⟩ ⟨3, ![2, 256, 512]⟩ (Layout.meshBlock [2, 2, 2] ![[1], [], []] c) X)

include hagree in
/-- Device c's argument buffer at (0, p, q) is the whole input at (y, p, q), y the device's y coordinate. -/
theorem arg_at (c : Dev nD) (p : Fin 256) (q : Fin 512) (k p' q' : ℕ) (hk : k < 2) (hp : p' < 256) (hq : q' < 512)
    (e0 : c.val / 2 % 2 = k) (e1 : p.val = p') (e2 : q.val = q') :
    m ((c : Thread nD τ).loc main_arg0) (ix3 (0 : Fin 1) p q) = Xr X ⟨k, hk⟩ ⟨p', hp⟩ ⟨q', hq⟩ := by
  rw [hagree c, Layout.blockN_apply]
  refine X_at X _ _ _ _ _ _ _ ?_ ?_ ?_
  · rw [Layout.TilesN.idx_val]
    show ((Layout.meshBlock [2, 2, 2] ![[1], [], []] c) (0 : Fin 3)).val * 1 + 0 = k
    rw [(argBlock_val c).1]; omega
  · rw [Layout.TilesN.idx_val]
    show ((Layout.meshBlock [2, 2, 2] ![[1], [], []] c) (1 : Fin 3)).val * 256 + p.val = p'
    rw [(argBlock_val c).2.1]; omega
  · rw [Layout.TilesN.idx_val]
    show ((Layout.meshBlock [2, 2, 2] ![[1], [], []] c) (2 : Fin 3)).val * 512 + q.val = q'
    rw [(argBlock_val c).2.2]; omega

end Agree

/-! ## The reference at an index: zero plus the sum of the two blocks -/

theorem ref_at (X : XTy) (p : Fin 256) (q : Fin 512) :
    Cert.ReferenceIdeal.Read.val_main_v1 (F := Ideal) X (ix2 p q) = Xr X 0 p q + Xr X 1 p q := by
  rw [Cert.ReferenceIdeal.Read.val_main_v1_apply]
  show Cert.ReferenceIdeal.Read.val_main_v0 (F := Ideal) X (ix2 p q) = _
  rw [Cert.ReferenceIdeal.Read.val_main_v0_apply, Cert.ReferenceIdeal.Read.val_main_cst_apply, Fin.sum_univ_two]
  show Ideal.ofBits .f32 0x00000000#32 + _ = _
  rw [Ideal.ofBits_zero_f32, zero_add]
  have e0 : Cert.ReferenceIdeal.Read.idx_main_v0 (ix2 p q) 0 = ix3 (0 : Fin 2) p q :=
    funext fun a => match a with | ⟨0, _⟩ => rfl | ⟨1, _⟩ => rfl | ⟨2, _⟩ => rfl
  have e1 : Cert.ReferenceIdeal.Read.idx_main_v0 (ix2 p q) 1 = ix3 (1 : Fin 2) p q :=
    funext fun a => match a with | ⟨0, _⟩ => rfl | ⟨1, _⟩ => rfl | ⟨2, _⟩ => rfl
  rw [e0, e1]

/-- The two blocks' elements at one place, taken in either order, add up to the same. -/
theorem swap2 (f : Fin 2 → EReal) (y : ℕ) (hy : y < 2) (hy' : 1 - y < 2) :
    f ⟨y, hy⟩ + f ⟨1 - y, hy'⟩ = f 0 + f 1 := by
  obtain rfl | rfl : y = 0 ∨ y = 1 := by omega
  · rfl
  · exact add_comm (G := EReal) _ _

/-- Where the element (p, q) of device c's block of the result is in the whole result. -/
theorem resIdx (c : Dev nD) (p q : Fin 256)
    (h : Layout.TilesN ⟨2, ![256, 256]⟩ ⟨2, ![256, 512]⟩ (fun b => Layout.cutSize [2, 2, 2] ((![[], [1]] : Fin 2 → List ℕ) b))) :
    h.idx (Layout.meshBlock [2, 2, 2] ![[], [1]] c) (ix2 p q)
      = ix2 p (⟨c.val / 2 % 2 * 256 + q.val, by omega⟩ : Fin 512) := by
  funext a
  refine Fin.ext ?_
  rw [Layout.TilesN.idx_val]
  match a with
  | ⟨0, _⟩ =>
    show ((Layout.meshBlock [2, 2, 2] ![[], [1]] c) (0 : Fin 2)).val * 256 + p.val = p.val
    rw [(resBlock_val c).1]; omega
  | ⟨1, _⟩ =>
    show ((Layout.meshBlock [2, 2, 2] ![[], [1]] c) (1 : Fin 2)).val * 256 + q.val = c.val / 2 % 2 * 256 + q.val
    rw [(resBlock_val c).2]

section Join

variable (m : (ℓ : Loc nD τ sig) → Buf (Elt Ideal) ℓ) (X : XTy)
  (hagree : ∀ c : Dev nD, m ((c.tc : Thread nD τ).loc main_arg0)
      = Layout.blockN ⟨3, ![1, 256, 512]⟩ ⟨3, ![2, 256, 512]⟩ (Layout.meshBlock [2, 2, 2] ![[1], [], []] c) X)

include hagree in
/-- The half a device keeps, at (p, q): its own block at column y * 256 + q. -/
theorem kept_at (c : Dev nD) (p q : Fin 256) :
    keptVal m c (ix2 p q)
      = Xr X ⟨c.val / 2 % 2, Nat.mod_lt _ (by decide)⟩ ⟨p.val, p.isLt⟩ ⟨c.val / 2 % 2 * 256 + q.val, by omega⟩ := by
  by_cases hy : y0 c
  · have hy' : c.val / 2 % 2 = 0 := hy
    unfold keptVal
    rw [if_pos hy, pay1_apply, loOf_apply, xstg_eq]
    exact arg_at m X hagree c _ _ _ _ _ _ _ _ rfl rfl (by show q.val = _; omega)
  · have hy' : c.val / 2 % 2 = 1 := by have : ¬ c.val / 2 % 2 = 0 := hy; omega
    unfold keptVal
    rw [if_neg hy, pay2_apply, hiOf_apply, xstg_eq]
    exact arg_at m X hagree c _ _ _ _ _ _ _ _ rfl rfl (by show 256 + q.val = _; omega)

include hagree in
/-- The half a device sends, at (p, q): its own block at column (1 - y) * 256 + q. -/
theorem send_at (c : Dev nD) (p q : Fin 256) :
    sendVal m c (ix2 p q)
      = Xr X ⟨c.val / 2 % 2, Nat.mod_lt _ (by decide)⟩ ⟨p.val, p.isLt⟩ ⟨(1 - c.val / 2 % 2) * 256 + q.val, by omega⟩ := by
  by_cases hy : y0 c
  · have hy' : c.val / 2 % 2 = 0 := hy
    unfold sendVal
    rw [if_pos hy, pay4_apply, hiOf_apply, xstg_eq]
    exact arg_at m X hagree c _ _ _ _ _ _ _ _ rfl rfl (by show 256 + q.val = _; omega)
  · have hy' : c.val / 2 % 2 = 1 := by have : ¬ c.val / 2 % 2 = 0 := hy; omega
    unfold sendVal
    rw [if_neg hy, pay5_apply, loOf_apply, xstg_eq]
    exact arg_at m X hagree c _ _ _ _ _ _ _ _ rfl rfl (by show q.val = _; omega)

include hagree in
/-- What lands on a device, at (p, q): the partner's block at column y * 256 + q. -/
theorem landed_at (c : Dev nD) (p q : Fin 256) :
    landed m c (ix2 p q)
      = Xr X ⟨1 - c.val / 2 % 2, by omega⟩ ⟨p.val, p.isLt⟩ ⟨c.val / 2 % 2 * 256 + q.val, by omega⟩ := by
  unfold landed
  rw [send_at m X hagree (peer c) p q]
  exact X_at X _ _ _ _ _ _ _ (by show (peer c).val / 2 % 2 = _; rw [peer_y]) rfl
    (by show (1 - (peer c).val / 2 % 2) * 256 + q.val = _; rw [peer_y]; omega)

include hagree in
/-- The kernel's result on each device, at the ideal instance, is its column block of the reference's result. -/
theorem out_eq_block (c : Dev nD) :
    outAt (F := Ideal) m c
      = Layout.blockN ⟨2, ![256, 256]⟩ ⟨2, ![256, 512]⟩ (Layout.meshBlock [2, 2, 2] ![[], [1]] c)
          (Cert.ReferenceIdeal.Read.val_main_v1 (F := Ideal) X) := by
  funext idx
  obtain ⟨p, q, rfl⟩ : ∃ (p q : Fin 256), idx = ix2 p q := ⟨idx 0, idx 1, eq_ix2 idx⟩
  rw [Layout.blockN_apply, resIdx c p q, ref_at]
  have hk := kept_at m X hagree c p q
  have hl := landed_at m X hagree c p q
  show (show EReal from keptVal m c (ix2 p q)) + (show EReal from landed m c (ix2 p q)) = _
  rw [hk, hl]
  exact swap2 (fun k => Xr X k ⟨p.val, p.isLt⟩ ⟨c.val / 2 % 2 * 256 + q.val, by omega⟩) _ _ _

end Join

end Cert.Bridge

/-- info: 'Cert.Bridge.out_eq_block' depends on axioms: [propext, Classical.choice, Quot.sound] -/
#guard_msgs in #print axioms Cert.Bridge.out_eq_block

end
-- ==== Proof.lean ====
/- The proof of `Cert.Claim`: the five conjuncts from the two kernels' runs, the reference's run and the value bridge.

   Each kernel program's run ends with every device's two arrays at the proof data's final contents: the argument array
   as launched, the result array the kept half plus the landed half. A frame is that run with the result forgotten. At the
   ideal instance the result on device c is column block y(c) of the reference's result (the sum of the two input blocks,
   narrowed), which is the algebraic claim's witness; the reference's own run gives its result as that term and its
   argument unchanged. The idealization rewrote no operation, so what it preserves is trivial. -/
import proofs.«900589_g7700000000000590_dist_rs_v7x_xyz2x2x2_y_m256_n256_bf16_1_alg».proof.Defs
import proofs.«900589_g7700000000000590_dist_rs_v7x_xyz2x2x2_y_m256_n256_bf16_1_alg».proof.Proof.Gen.Kernel
import proofs.«900589_g7700000000000590_dist_rs_v7x_xyz2x2x2_y_m256_n256_bf16_1_alg».proof.Proof.Gen.KernelIdeal
import proofs.«900589_g7700000000000590_dist_rs_v7x_xyz2x2x2_y_m256_n256_bf16_1_alg».proof.Proof.Gen.ReferenceIdeal
import proofs.«900589_g7700000000000590_dist_rs_v7x_xyz2x2x2_y_m256_n256_bf16_1_alg».proof.Proof.Gen.ReferenceIdeal.Run
import proofs.«900589_g7700000000000590_dist_rs_v7x_xyz2x2x2_y_m256_n256_bf16_1_alg».proof.Proof.Gen.ReferenceIdeal.Read
import proofs.«900589_g7700000000000590_dist_rs_v7x_xyz2x2x2_y_m256_n256_bf16_1_alg».proof.Proof.Gen.Pre_finite_inputs_Kernel
import proofs.«900589_g7700000000000590_dist_rs_v7x_xyz2x2x2_y_m256_n256_bf16_1_alg».proof.Proof.Gen.Pre_finite_inputs_ReferenceIdeal
import proofs.«900589_g7700000000000590_dist_rs_v7x_xyz2x2x2_y_m256_n256_bf16_1_alg».proof.Proof.KernelRun
import proofs.«900589_g7700000000000590_dist_rs_v7x_xyz2x2x2_y_m256_n256_bf16_1_alg».proof.Proof.KernelIdealRun
import proofs.«900589_g7700000000000590_dist_rs_v7x_xyz2x2x2_y_m256_n256_bf16_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves each device's argument array as launched. -/
theorem frame_k : Cert.frame_Kernel := fun m ρ _ =>
  (θ_run (Cert.Kernel.defs (F := Bits)) _ _).mono (fun _ h c => (h c (0 : Fin 2)).trans (Cert.Kernel.Exch.final_x m c))
    (Cert.Kernel.Exch.run_main (F := Bits) m ρ)

/-- So does the idealized kernel. -/
theorem frame_ki : Cert.frame_KernelIdeal := fun m ρ _ =>
  (θ_run (Cert.KernelIdeal.defs (F := Ideal)) _ _).mono (fun _ h c => (h c (0 : Fin 2)).trans (Cert.KernelIdeal.Exch.final_x m c))
    (Cert.KernelIdeal.Exch.run_main (F := Ideal) m ρ)

/-- The reference runs and leaves its argument array as launched: its generated run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal instance each device's result is its column block of the reference's result, the sum over the two
    input blocks: the kernel's run ends at the kept half plus the landed half, which is that block; the reference's
    run ends at the sum. Both leave their arguments as launched. -/
theorem algebraic : Cert.algebraic_KernelIdeal_ReferenceIdeal := by
  intro m ρ m' ρ' _ hagree
  refine ⟨Cert.ReferenceIdeal.Read.val_main_v1 (F := Ideal)
    (m' (((0 : Dev Cert.ReferenceIdeal.nD).tc : Thread Cert.ReferenceIdeal.nD Cert.ReferenceIdeal.τ).loc Cert.ReferenceIdeal.main_arg0)), ?_, ?_⟩
  · exact (θ_run (Cert.KernelIdeal.defs (F := Ideal)) _ _).mono
      (fun _ h c => ⟨((h c (1 : Fin 2)).trans (Cert.KernelIdeal.Exch.final_out m c)).trans (Cert.Bridge.out_eq_block m _ hagree c),
        (h c (0 : Fin 2)).trans (Cert.KernelIdeal.Exch.final_x m c)⟩)
      (Cert.KernelIdeal.Exch.run_main (F := Ideal) m ρ)
  · exact (θ_run Cert.ReferenceIdeal.defs _ _).mono
      (fun _ h => ⟨(h 0).1.trans (Cert.ReferenceIdeal.Read.val_main_v1_eq _), (h 0).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, frame_ri, preserves, algebraic⟩

end Cert.Proof

end
